-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg12 : FVec F S3 .f32) (main_v48 : IVec S_ 1) (main_v49 : FVec F S32x3 .f32) (main_v50 : FVec F S32x3 .f32) : IVec S_ 1 :=
  let main_v51 : IVec S32x3 1 := cmpf .olt main_v49 main_v50
  let main_c_19 : IVec S_ 1 := constantI S_ 1 1#1
  let main_v52 : IVec S_ 1 := (fun x v => Host.reduce IntOp.andi x v reducesTo_S32x3_S_d0_1 h_S_) main_v51 main_c_19
  let main_v53 : IVec S_ 1 := andi main_v48 main_v52
  let main_v54 : FVec F S3 .f32 := Host.absf main_arg12
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  main_v58

def fn_part2 {F : FTy → Type} [FloatOps F] (main_arg8 : FVec F S64 .f32) (main_arg9 : FVec F S64x32 .f32) (main_arg10 : FVec F S32 .f32) (main_arg11 : FVec F S32x3 .f32) (main_arg12 : FVec F S3 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg9
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x3 .f32 := Host.absf main_arg11
  let main_cst_18 : FVec F S_ .f32 := constant S_ .f32 0x7F800000#32
  let main_v50 : FVec F S32x3 .f32 := broadcastInDim S32x3 ![] bcast_S_S32x3 main_cst_18
  fn_part3 (F := F) main_arg12 main_v48 main_v49 main_v50

def fn_part1 {F : FTy → Type} [FloatOps F] (main_arg5 : FVec F S256x128 .f32) (main_arg6 : FVec F S128 .f32) (main_arg7 : FVec F S128x64 .f32) (main_arg8 : FVec F S64 .f32) (main_arg9 : FVec F S64x32 .f32) (main_arg10 : FVec F S32 .f32) (main_arg11 : FVec F S32x3 .f32) (main_arg12 : FVec F S3 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S10000x512 .f32) (main_arg1 : IVec S2x160000 32) (main_arg2 : FVec F S512x256 .f32) (main_arg3 : FVec F S256 .f32) (main_arg4 : FVec F S512x256 .f32) (main_arg5 : FVec F S256x128 .f32) (main_arg6 : FVec F S128 .f32) (main_arg7 : FVec F S128x64 .f32) (main_arg8 : FVec F S64 .f32) (main_arg9 : FVec F S64x32 .f32) (main_arg10 : FVec F S32 .f32) (main_arg11 : FVec F S32x3 .f32) (main_arg12 : FVec F S3 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_arg6 main_arg7 main_arg8 main_arg9 main_arg10 main_arg11 main_arg12 main_v13 main_v16
-- ==== Kernel.lean ====
abbrev S10000x512 : Shape := ⟨2, ![10000, 512]⟩
abbrev S2x160000 : Shape := ⟨2, ![2, 160000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S1x256 : Shape := ⟨2, ![1, 256]⟩
abbrev S1x128 : Shape := ⟨2, ![1, 128]⟩
abbrev S1x64 : Shape := ⟨2, ![1, 64]⟩
abbrev S1x32 : Shape := ⟨2, ![1, 32]⟩
abbrev S1x3 : Shape := ⟨2, ![1, 3]⟩
abbrev S10000x3 : Shape := ⟨2, ![10000, 3]⟩
abbrev S1000x512 : Shape := ⟨2, ![1000, 512]⟩
abbrev S1000x3 : Shape := ⟨2, ![1000, 3]⟩
abbrev S1000x256 : Shape := ⟨2, ![1000, 256]⟩
abbrev S1000x128 : Shape := ⟨2, ![1000, 128]⟩
abbrev S1000x64 : Shape := ⟨2, ![1000, 64]⟩
abbrev S1000x32 : Shape := ⟨2, ![1000, 32]⟩
abbrev S3x10000 : Shape := ⟨2, ![3, 10000]⟩
abbrev S10000x10000 : Shape := ⟨2, ![10000, 10000]⟩
abbrev S80x3 : Shape := ⟨2, ![80, 3]⟩
abbrev S80x10000 : Shape := ⟨2, ![80, 10000]⟩
abbrev S80x1 : Shape := ⟨2, ![80, 1]⟩
abbrev S1x10000 : Shape := ⟨2, ![1, 10000]⟩

abbrev nBuf : Space → Nat
  | .hbm => 50
  | .vmem => 22
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x3, .f32⟩
  | .hbm, ⟨12, _⟩ => ⟨S3, .f32⟩
  | .hbm, ⟨13, _⟩ => ⟨S1x160000, .i32⟩
  | .hbm, ⟨14, _⟩ => ⟨S160000, .i32⟩
  | .hbm, ⟨15, _⟩ => ⟨S1x160000, .i32⟩
  | .hbm, ⟨16, _⟩ => ⟨S160000, .i32⟩
  | .hbm, ⟨17, _⟩ => ⟨S_, .i32⟩
  | .hbm, ⟨18, _⟩ => ⟨S160000, .i32⟩
  | .hbm, ⟨19, _⟩ => ⟨S160000, .i1⟩
  | .hbm, ⟨20, _⟩ => ⟨S_, .i32⟩
  | .hbm, ⟨21, _⟩ => ⟨S160000, .i32⟩
  | .hbm, ⟨22, _⟩ => ⟨S160000, .i32⟩
  | .hbm, ⟨23, _⟩ => ⟨S160000, .i32⟩
  | .hbm, ⟨24, _⟩ => ⟨S160000x1, .i32⟩
  | .hbm, ⟨25, _⟩ => ⟨S160000x512, .f32⟩
  | .hbm, ⟨26, _⟩ => ⟨S_, .f32⟩
  | .hbm, ⟨27, _⟩ => ⟨S10000x512, .f32⟩
  | .hbm, ⟨28, _⟩ => ⟨S160000x1, .i32⟩
  | .hbm, ⟨29, _⟩ => ⟨S10000x512, .f32⟩
  | .hbm, ⟨30, _⟩ => ⟨S_, .f32⟩
  | .hbm, ⟨31, _⟩ => ⟨S160000, .f32⟩
  | .hbm, ⟨32, _⟩ => ⟨S_, .f32⟩
  | .hbm, ⟨33, _⟩ => ⟨S10000, .f32⟩
  | .hbm, ⟨34, _⟩ => ⟨S160000x1, .i32⟩
  | .hbm, ⟨35, _⟩ => ⟨S10000, .f32⟩
  | .hbm, ⟨36, _⟩ => ⟨S_, .f32⟩
  | .hbm, ⟨37, _⟩ => ⟨S10000, .f32⟩
  | .hbm, ⟨38, _⟩ => ⟨S10000, .f32⟩
  | .hbm, ⟨39, _⟩ => ⟨S10000x1, .f32⟩
  | .hbm, ⟨40, _⟩ => ⟨S10000x512, .f32⟩
  | .hbm, ⟨41, _⟩ => ⟨S10000x512, .f32⟩
  | .hbm, ⟨42, _⟩ => ⟨S1x256, .f32⟩
  | .hbm, ⟨43, _⟩ => ⟨S1x128, .f32⟩
  | .hbm, ⟨44, _⟩ => ⟨S1x64, .f32⟩
  | .hbm, ⟨45, _⟩ => ⟨S1x32, .f32⟩
  | .hbm, ⟨46, _⟩ => ⟨S1x3, .f32⟩
  | .hbm, ⟨47, _⟩ => ⟨S10000x3, .f32⟩
  | .hbm, ⟨48, _⟩ => ⟨S3x10000, .f32⟩
  | .hbm, ⟨49, _⟩ => ⟨S10000x10000, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x256, .f32⟩
  | .local _ .vmem, ⟨5, _⟩ => ⟨S1x256, .f32⟩
  | .local _ .vmem, ⟨6, _⟩ => ⟨S512x256, .f32⟩
  | .local _ .vmem, ⟨7, _⟩ => ⟨S256x128, .f32⟩
  | .local _ .vmem, ⟨8, _⟩ => ⟨S1x128, .f32⟩
  | .local _ .vmem, ⟨9, _⟩ => ⟨S128x64, .f32⟩
  | .local _ .vmem, ⟨10, _⟩ => ⟨S1x64, .f32⟩
  | .local _ .vmem, ⟨11, _⟩ => ⟨S64x32, .f32⟩
  | .local _ .vmem, ⟨12, _⟩ => ⟨S1x32, .f32⟩
  | .local _ .vmem, ⟨13, _⟩ => ⟨S32x3, .f32⟩
  | .local _ .vmem, ⟨14, _⟩ => ⟨S1x3, .f32⟩
  | .local _ .vmem, ⟨15, _⟩ => ⟨S1000x3, .f32⟩
  | .local _ .vmem, ⟨16, _⟩ => ⟨S1000x3, .f32⟩
  | .local _ .vmem, ⟨17, _⟩ => ⟨S80x3, .f32⟩
  | .local _ .vmem, ⟨18, _⟩ => ⟨S80x3, .f32⟩
  | .local _ .vmem, ⟨19, _⟩ => ⟨S3x10000, .f32⟩
  | .local _ .vmem, ⟨20, _⟩ => ⟨S80x10000, .f32⟩
  | .local _ .vmem, ⟨21, _⟩ => ⟨S80x10000, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1000x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S80x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x10000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S80x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  shapeCasts_S256_S1x256 : S256.ShapeCasts S1x256
  shapeCasts_S128_S1x128 : S128.ShapeCasts S1x128
  shapeCasts_S64_S1x64 : S64.ShapeCasts S1x64
  shapeCasts_S32_S1x32 : S32.ShapeCasts S1x32
  shapeCasts_S3_S1x3 : S3.ShapeCasts S1x3
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1000x32 : S1x32.Broadcasts S1000x32
  inb_S32x3_S32x3_0_0 : ∀ a, (![0, 0] : Fin 2 → Nat) a + S32x3.size a ≤ S32x3.size a
  h_S32x3 : 0 < S32x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S1000x3 : S1x3.Broadcasts S1000x3
  inb_S1000x3_S1000x3_0_0 : ∀ a, (![0, 0] : Fin 2 → Nat) a + S1000x3.size a ≤ S1000x3.size a
  h_S1000x3 : 0 < S1000x3.numel
  transposes_S10000x3_S3x10000_1_0 : S10000x3.Transposes [1, 0] S3x10000
  inb_S80x3_S80x3_0_0 : ∀ a, (![0, 0] : Fin 2 → Nat) a + S80x3.size a ≤ S80x3.size a
  h_S80x3 : 0 < S80x3.numel
  shapeCasts_S80x3_S80x3 : S80x3.ShapeCasts S80x3
  inb_S3x10000_S3x10000_0_0 : ∀ a, (![0, 0] : Fin 2 → Nat) a + S3x10000.size a ≤ S3x10000.size a
  h_S3x10000 : 0 < S3x10000.numel
  shapeCasts_S3x10000_S3x10000 : S3x10000.ShapeCasts S3x10000
  slices_S80x3_o0_0_S80x1 : S80x3.Slices ![0, 0] S80x1
  slices_S3x10000_o0_0_S1x10000 : S3x10000.Slices ![0, 0] S1x10000
  broadcasts_S80x1_S80x10000 : S80x1.Broadcasts S80x10000
  broadcasts_S1x10000_S80x10000 : S1x10000.Broadcasts S80x10000
  slices_S80x3_o0_1_S80x1 : S80x3.Slices ![0, 1] S80x1
  slices_S3x10000_o1_0_S1x10000 : S3x10000.Slices ![1, 0] S1x10000
  slices_S80x3_o0_2_S80x1 : S80x3.Slices ![0, 2] S80x1
  slices_S3x10000_o2_0_S1x10000 : S3x10000.Slices ![2, 0] S1x10000
  inb_S80x10000_S80x10000_0_0 : ∀ a, (![0, 0] : Fin 2 → Nat) a + S80x10000.size a ≤ S80x10000.size a
  h_S80x10000 : 0 < S80x10000.numel
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S1000x512_S512x256_S1000x256_1_0_0_1_n_n_wf : DotDims.WF S1000x512 S512x256 S1000x256 [1] [0] [0] [1] [] []
  dot_S1000x256_S256x128_S1000x128_1_0_0_1_n_n_wf : DotDims.WF S1000x256 S256x128 S1000x128 [1] [0] [0] [1] [] []
  dot_S1000x128_S128x64_S1000x64_1_0_0_1_n_n_wf : DotDims.WF S1000x128 S128x64 S1000x64 [1] [0] [0] [1] [] []
  dot_S1000x64_S64x32_S1000x32_1_0_0_1_n_n_wf : DotDims.WF S1000x64 S64x32 S1000x32 [1] [0] [0] [1] [] []
  dot_S1000x32_S32x3_S1000x3_1_0_0_1_n_n_wf : DotDims.WF S1000x32 S32x3 S1000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S10000x512.size a
  hwx0_1 : ∀ i : grid0.Coords, EltTy.bits .f32 = 32 ∨ (Rect.block (s := S10000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x32.size a ≤ S64x32.size a
  hwx0_9 : ∀ i : grid0.Coords, EltTy.bits .f32 = 32 ∨ (Rect.block (s := S64x32) S64x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x3.size a ≤ S32x3.size a
  hwx0_11 : ∀ i : grid0.Coords, EltTy.bits .f32 = 32 ∨ (Rect.block (s := S32x3) S32x3.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x3.size a ≤ S1x3.size a
  hwx0_12 : ∀ i : grid0.Coords, EltTy.bits .f32 = 32 ∨ (Rect.block (s := S1x3) S1x3.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1000x3.size a ≤ S10000x3.size a
  hwx0_13 : ∀ i : grid0.Coords, EltTy.bits .f32 = 32 ∨ (Rect.block (s := S10000x3) S1000x3.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S80x3.size a ≤ S10000x3.size a
  hwx1_0 : ∀ i : grid1.Coords, EltTy.bits .f32 = 32 ∨ (Rect.block (s := S10000x3) S80x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x10000.size a ≤ S3x10000.size a
  hwx1_1 : ∀ i : grid1.Coords, EltTy.bits .f32 = 32 ∨ (Rect.block (s := S3x10000) S3x10000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S80x10000.size a ≤ S10000x10000.size a
  hwx1_2 : ∀ i : grid1.Coords, EltTy.bits .f32 = 32 ∨ (Rect.block (s := S10000x10000) S80x10000.size (cc1_transform_2 i) (hinb1_2 i)).WholeWords (EltTy.packing .f32)

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S1000x64_S64x32_S1000x32_1_0_0_1_n_n : DotDims S1000x64 S64x32 S1000x32 where
  lhsContracting := [1]
  rhsContracting := [0]
  lhsNonContracting := [0]
  rhsNonContracting := [1]
  lhsBatch := []
  rhsBatch := []
  wf := dot_S1000x64_S64x32_S1000x32_1_0_0_1_n_n_wf
def dot_S1000x32_S32x3_S1000x3_1_0_0_1_n_n : DotDims S1000x32 S32x3 S1000x3 where
  lhsContracting := [1]
  rhsContracting := [0]
  lhsNonContracting := [0]
  rhsNonContracting := [1]
  lhsBatch := []
  rhsBatch := []
  wf := dot_S1000x32_S32x3_S1000x3_1_0_0_1_n_n_wf

abbrev win0_0 : Pipeline.Window sig grid0 :=
  Pipeline.Window.ofSpec (Memref.whole main_v22) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S32x3.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v27) S1x3.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v28) S1000x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v28) S80x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S3x10000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S80x10000.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S10000x256 : Shape := ⟨2, ![10000, 256]⟩
abbrev S1x256 : Shape := ⟨2, ![1, 256]⟩
abbrev S10000x128 : Shape := ⟨2, ![10000, 128]⟩
abbrev S1x128 : Shape := ⟨2, ![1, 128]⟩
abbrev S10000x64 : Shape := ⟨2, ![10000, 64]⟩
abbrev S1x64 : Shape := ⟨2, ![1, 64]⟩
abbrev S10000x32 : Shape := ⟨2, ![10000, 32]⟩
abbrev S1x32 : Shape := ⟨2, ![1, 32]⟩
abbrev S10000x3 : Shape := ⟨2, ![10000, 3]⟩
abbrev S1x3 : Shape := ⟨2, ![1, 3]⟩
abbrev S1x10000 : Shape := ⟨2, ![1, 10000]⟩
abbrev S10000x10000 : Shape := ⟨2, ![10000, 10000]⟩
abbrev S3x10000 : Shape := ⟨2, ![3, 10000]⟩

abbrev nBuf : Space → Nat
  | .hbm => 108
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x3, .f32⟩
  | .hbm, ⟨12, _⟩ => ⟨S3, .f32⟩
  | .hbm, ⟨13, _⟩ => ⟨S1x160000, .i32⟩
  | .hbm, ⟨14, _⟩ => ⟨S160000, .i32⟩
  | .hbm, ⟨15, _⟩ => ⟨S1x160000, .i32⟩
  | .hbm, ⟨16, _⟩ => ⟨S160000, .i32⟩
  | .hbm, ⟨17, _⟩ => ⟨S_, .i32⟩
  | .hbm, ⟨18, _⟩ => ⟨S160000, .i32⟩
  | .hbm, ⟨19, _⟩ => ⟨S160000, .i1⟩
  | .hbm, ⟨20, _⟩ => ⟨S_, .i32⟩
  | .hbm, ⟨21, _⟩ => ⟨S160000, .i32⟩
  | .hbm, ⟨22, _⟩ => ⟨S160000, .i32⟩
  | .hbm, ⟨23, _⟩ => ⟨S160000, .i32⟩
  | .hbm, ⟨24, _⟩ => ⟨S160000x1, .i32⟩
  | .hbm, ⟨25, _⟩ => ⟨S160000x512, .f32⟩
  | .hbm, ⟨26, _⟩ => ⟨S_, .f32⟩
  | .hbm, ⟨27, _⟩ => ⟨S10000x512, .f32⟩
  | .hbm, ⟨28, _⟩ => ⟨S160000x1, .i32⟩
  | .hbm, ⟨29, _⟩ => ⟨S10000x512, .f32⟩
  | .hbm, ⟨30, _⟩ => ⟨S_, .f32⟩
  | .hbm, ⟨31, _⟩ => ⟨S160000, .f32⟩
  | .hbm, ⟨32, _⟩ => ⟨S_, .f32⟩
  | .hbm, ⟨33, _⟩ => ⟨S10000, .f32⟩
  | .hbm, ⟨34, _⟩ => ⟨S160000x1, .i32⟩
  | .hbm, ⟨35, _⟩ => ⟨S10000, .f32⟩
  | .hbm, ⟨36, _⟩ => ⟨S_, .f32⟩
  | .hbm, ⟨37, _⟩ => ⟨S10000, .f32⟩
  | .hbm, ⟨38, _⟩ => ⟨S10000, .f32⟩
  | .hbm, ⟨39, _⟩ => ⟨S10000x1, .f32⟩
  | .hbm, ⟨40, _⟩ => ⟨S10000x512, .f32⟩
  | .hbm, ⟨41, _⟩ => ⟨S10000x512, .f32⟩
  | .hbm, ⟨42, _⟩ => ⟨S10000x256, .f32⟩
  | .hbm, ⟨43, _⟩ => ⟨S1x256, .f32⟩
  | .hbm, ⟨44, _⟩ => ⟨S10000x256, .f32⟩
  | .hbm, ⟨45, _⟩ => ⟨S10000x256, .f32⟩
  | .hbm, ⟨46, _⟩ => ⟨S10000x256, .f32⟩
  | .hbm, ⟨47, _⟩ => ⟨S10000x256, .f32⟩
  | .hbm, ⟨48, _⟩ => ⟨S_, .f32⟩
  | .hbm, ⟨49, _⟩ => ⟨S10000x256, .f32⟩
  | .hbm, ⟨50, _⟩ => ⟨S10000x256, .f32⟩
  | .hbm, ⟨51, _⟩ => ⟨S10000x128, .f32⟩
  | .hbm, ⟨52, _⟩ => ⟨S1x128, .f32⟩
  | .hbm, ⟨53, _⟩ => ⟨S10000x128, .f32⟩
  | .hbm, ⟨54, _⟩ => ⟨S10000x128, .f32⟩
  | .hbm, ⟨55, _⟩ => ⟨S_, .f32⟩
  | .hbm, ⟨56, _⟩ => ⟨S10000x128, .f32⟩
  | .hbm, ⟨57, _⟩ => ⟨S10000x128, .f32⟩
  | .hbm, ⟨58, _⟩ => ⟨S10000x64, .f32⟩
  | .hbm, ⟨59, _⟩ => ⟨S1x64, .f32⟩
  | .hbm, ⟨60, _⟩ => ⟨S10000x64, .f32⟩
  | .hbm, ⟨61, _⟩ => ⟨S10000x64, .f32⟩
  | .hbm, ⟨62, _⟩ => ⟨S_, .f32⟩
  | .hbm, ⟨63, _⟩ => ⟨S10000x64, .f32⟩
  | .hbm, ⟨64, _⟩ => ⟨S10000x64, .f32⟩
  | .hbm, ⟨65, _⟩ => ⟨S10000x32, .f32⟩
  | .hbm, ⟨66, _⟩ => ⟨S1x32, .f32⟩
  | .hbm, ⟨67, _⟩ => ⟨S10000x32, .f32⟩
  | .hbm, ⟨68, _⟩ => ⟨S10000x32, .f32⟩
  | .hbm, ⟨69, _⟩ => ⟨S_, .f32⟩
  | .hbm, ⟨70, _⟩ => ⟨S10000x32, .f32⟩
  | .hbm, ⟨71, _⟩ => ⟨S10000x32, .f32⟩
  | .hbm, ⟨72, _⟩ => ⟨S10000x3, .f32⟩
  | .hbm, ⟨73, _⟩ => ⟨S1x3, .f32⟩
  | .hbm, ⟨74, _⟩ => ⟨S10000x3, .f32⟩
  | .hbm, ⟨75, _⟩ => ⟨S10000x3, .f32⟩
  | .hbm, ⟨76, _⟩ => ⟨S10000x3, .f32⟩
  | .hbm, ⟨77, _⟩ => ⟨S_, .f32⟩
  | .hbm, ⟨78, _⟩ => ⟨S10000, .f32⟩
  | .hbm, ⟨79, _⟩ => ⟨S10000x1, .f32⟩
  | .hbm, ⟨80, _⟩ => ⟨S1x10000, .f32⟩
  | .hbm, ⟨81, _⟩ => ⟨S10000x10000, .f32⟩
  | .hbm, ⟨82, _⟩ => ⟨S10000x10000, .f32⟩
  | .hbm, ⟨83, _⟩ => ⟨S10000x10000, .f32⟩
  | .hbm, ⟨84, _⟩ => ⟨S3x10000, .f32⟩
  | .hbm, ⟨85, _⟩ => ⟨S10000x10000, .f32⟩
  | .hbm, ⟨86, _⟩ => ⟨S_, .f32⟩
  | .hbm, ⟨87, _⟩ => ⟨S10000x10000, .f32⟩
  | .hbm, ⟨88, _⟩ => ⟨S10000x10000, .f32⟩
  | .hbm, ⟨89, _⟩ => ⟨S10000x10000, .f32⟩
  | .hbm, ⟨90, _⟩ => ⟨S_, .f32⟩
  | .hbm, ⟨91, _⟩ => ⟨S10000x10000, .f32⟩
  | .hbm, ⟨92, _⟩ => ⟨S10000x10000, .f32⟩
  | .hbm, ⟨93, _⟩ => ⟨S_, .f32⟩
  | .hbm, ⟨94, _⟩ => ⟨S10000x10000, .f32⟩
  | .hbm, ⟨95, _⟩ => ⟨S10000x10000, .i1⟩
  | .hbm, ⟨96, _⟩ => ⟨S_, .f32⟩
  | .hbm, ⟨97, _⟩ => ⟨S_, .f32⟩
  | .hbm, ⟨98, _⟩ => ⟨S10000x10000, .f32⟩
  | .hbm, ⟨99, _⟩ => ⟨S10000x10000, .f32⟩
  | .hbm, ⟨100, _⟩ => ⟨S_, .f32⟩
  | .hbm, ⟨101, _⟩ => ⟨S10000x10000, .f32⟩
  | .hbm, ⟨102, _⟩ => ⟨S10000x10000, .i1⟩
  | .hbm, ⟨103, _⟩ => ⟨S10000x10000, .f32⟩
  | .hbm, ⟨104, _⟩ => ⟨S_, .f32⟩
  | .hbm, ⟨105, _⟩ => ⟨S_, .f32⟩
  | .hbm, ⟨106, _⟩ => ⟨S10000x10000, .f32⟩
  | .hbm, ⟨107, _⟩ => ⟨S10000x10000, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call1_cst : Ref sig .tc := ⟨.hbm, 55, rfl⟩
abbrev main_call1_v0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call2_cst : Ref sig .tc := ⟨.hbm, 62, rfl⟩
abbrev main_call2_v0 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call3_cst : Ref sig .tc := ⟨.hbm, 69, rfl⟩
abbrev main_call3_v0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_4 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_5 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_6 : Ref sig .tc := ⟨.hbm, 90, rfl⟩
abbrev main_v61 : Ref sig .tc := ⟨.hbm, 91, rfl⟩
abbrev main_v62 : Ref sig .tc := ⟨.hbm, 92, rfl⟩
abbrev main_cst_7 : Ref sig .tc := ⟨.hbm, 93, rfl⟩
abbrev main_v63 : Ref sig .tc := ⟨.hbm, 94, rfl⟩
abbrev main_v64 : Ref sig .tc := ⟨.hbm, 95, rfl⟩
abbrev main_cst_8 : Ref sig .tc := ⟨.hbm, 96, rfl⟩
abbrev main_call4_v0 : Ref sig .tc := ⟨.hbm, 97, rfl⟩
abbrev main_call4_v1 : Ref sig .tc := ⟨.hbm, 98, rfl⟩
abbrev main_v65 : Ref sig .tc := ⟨.hbm, 99, rfl⟩
abbrev main_cst_9 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_10 : Ref sig .tc := ⟨.hbm, 104, rfl⟩
abbrev main_call5_v0 : Ref sig .tc := ⟨.hbm, 105, rfl⟩
abbrev main_call5_v1 : Ref sig .tc := ⟨.hbm, 106, rfl⟩
abbrev main_v69 : Ref sig .tc := ⟨.hbm, 107, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  bcast_S3_S1x3_1 : S3.BroadcastsInDim S1x3 (![1] : Fin 1 → Fin S1x3.rank)
  bcast_S1x3_S10000x3_0_1 : S1x3.BroadcastsInDim S10000x3 (![0, 1] : Fin 2 → Fin S10000x3.rank)
  reducesTo_S10000x3_S10000_d1 : S10000x3.ReducesTo [1] S10000
  h_S_ : 0 < S_.numel
  bcast_S10000_S1x10000_1 : S10000.BroadcastsInDim S1x10000 (![1] : Fin 1 → Fin S1x10000.rank)
  bcast_S10000x1_S10000x10000_0_1 : S10000x1.BroadcastsInDim S10000x10000 (![0, 1] : Fin 2 → Fin S10000x10000.rank)
  bcast_S1x10000_S10000x10000_0_1 : S1x10000.BroadcastsInDim S10000x10000 (![0, 1] : Fin 2 → Fin S10000x10000.rank)
  transposes_S10000x3_S3x10000_1_0 : S10000x3.Transposes [1, 0] S3x10000
  bcast_S_S10000x10000 : S_.BroadcastsInDim S10000x10000 (![] : Fin 0 → Fin S10000x10000.rank)
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S10000x512_S512x256_S10000x256_1_0_0_1_n_n_wf : DotDims.WF S10000x512 S512x256 S10000x256 [1] [0] [0] [1] [] []
  dot_S10000x256_S256x128_S10000x128_1_0_0_1_n_n_wf : DotDims.WF S10000x256 S256x128 S10000x128 [1] [0] [0] [1] [] []
  dot_S10000x128_S128x64_S10000x64_1_0_0_1_n_n_wf : DotDims.WF S10000x128 S128x64 S10000x64 [1] [0] [0] [1] [] []
  dot_S10000x64_S64x32_S10000x32_1_0_0_1_n_n_wf : DotDims.WF S10000x64 S64x32 S10000x32 [1] [0] [0] [1] [] []
  dot_S10000x32_S32x3_S10000x3_1_0_0_1_n_n_wf : DotDims.WF S10000x32 S32x3 S10000x3 [1] [0] [0] [1] [] []
  dot_S10000x3_S3x10000_S10000x10000_1_0_0_1_n_n_wf : DotDims.WF S10000x3 S3x10000 S10000x10000 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x3_S10000x3_1_0_0_1_n_n : DotDims S10000x32 S32x3 S10000x3 where
  lhsContracting := [1]
  rhsContracting := [0]
  lhsNonContracting := [0]
  rhsNonContracting := [1]
  lhsBatch := []
  rhsBatch := []
  wf := dot_S10000x32_S32x3_S10000x3_1_0_0_1_n_n_wf
def dot_S10000x3_S3x10000_S10000x10000_1_0_0_1_n_n : DotDims S10000x3 S3x10000 S10000x10000 where
  lhsContracting := [1]
  rhsContracting := [0]
  lhsNonContracting := [0]
  rhsNonContracting := [1]
  lhsBatch := []
  rhsBatch := []
  wf := dot_S10000x3_S3x10000_S10000x10000_1_0_0_1_n_n_wf

class Facts : Prop extends Facts₀ where

variable [Facts]
-- ==== Proof.Spec.lean ====
/-
  The mathematics of the two programs, row by row, on the extended reals.

  A node's embedding is a chain of dense layers: the first adds the neighbourhood mean times one matrix, a bias, and
  the node's own features times a second matrix; each later layer is a matrix product plus a bias; a rectifier
  follows every layer but the last. The result is the table of Euclidean distances between the embeddings in
  dimension three: the square root of the squared distance where that is positive, and zero elsewhere.
  The squared distance is spelt in two ways: as the sum of the three squared coordinate differences, and as
  the two squared norms minus twice the inner product. The two agree on real vectors.
-/
import Idealize.ShloMosaic.PureOps.Ideal
import Idealize.ShloMosaic.Lib.ValueIdx

noncomputable section

open scoped BigOperators

namespace Sage

open Idealize.ShloMosaic Idealize.ShloMosaic.ValueIdx

/-- Row `i` of a matrix given as a function of rank-2 indices. -/
def row {n d : Nat} (A : (⟨2, ![n, d]⟩ : Shape).Idx → EReal) (i : Fin n) : Fin d → EReal := fun k => A (ix2 i k)
/-- A matrix given as a function of rank-2 indices, by its two coordinates. -/
def mat {n d : Nat} (A : (⟨2, ![n, d]⟩ : Shape).Idx → EReal) : Fin n → Fin d → EReal := fun k j => A (ix2 k j)
/-- A vector given as a function of rank-1 indices, by its coordinate. -/
def vec {d : Nat} (b : (⟨1, ![d]⟩ : Shape).Idx → EReal) : Fin d → EReal := fun j => b (ix1 j)

/-- A value is real: neither infinity. -/
def IsReal (x : EReal) : Prop := ∃ r : ℝ, x = (r : EReal)

/-- One dense layer on a row: the row times the matrix, plus the bias. -/
def dense {n d : Nat} (h : Fin n → EReal) (W : Fin n → Fin d → EReal) (b : Fin d → EReal) : Fin d → EReal :=
  fun j => (∑ k, h k * W k j) + b j
/-- The rectifier, coordinate by coordinate. -/
def relu {d : Nat} (v : Fin d → EReal) : Fin d → EReal := fun j => max (v j) 0
/-- The first layer: the neighbourhood mean times `Wl`, plus the bias, plus the node's own row times `Wr`. -/
def sage {n d : Nat} (a x : Fin n → EReal) (Wl : Fin n → Fin d → EReal) (bl : Fin d → EReal) (Wr : Fin n → Fin d → EReal) :
    Fin d → EReal :=
  fun j => ((∑ k, a k * Wl k j) + bl j) + ∑ k, x k * Wr k j
/-- A node's embedding from its neighbourhood mean `a` and its own features `x`. -/
def mlp (a x : Fin 512 → EReal) (Wl : Fin 512 → Fin 256 → EReal) (bl : Fin 256 → EReal) (Wr : Fin 512 → Fin 256 → EReal)
    (Wa : Fin 256 → Fin 128 → EReal) (ba : Fin 128 → EReal) (W1 : Fin 128 → Fin 64 → EReal) (b1 : Fin 64 → EReal)
    (W2 : Fin 64 → Fin 32 → EReal) (b2 : Fin 32 → EReal) (W3 : Fin 32 → Fin 3 → EReal) (b3 : Fin 3 → EReal) : Fin 3 → EReal :=
  dense (relu (dense (relu (dense (relu (dense (relu (sage a x Wl bl Wr)) Wa ba)) W1 b1)) W2 b2)) W3 b3

/-- The squared distance as the sum of the three squared coordinate differences. -/
def sqd (u v : Fin 3 → EReal) : EReal :=
  ((u 0 - v 0) * (u 0 - v 0) + (u 1 - v 1) * (u 1 - v 1)) + (u 2 - v 2) * (u 2 - v 2)
/-- The pattern of the float `2.0`. -/
def two32 : EReal := Ideal.ofBits .f32 0x40000000#32
/-- The pattern of the float `1.0`. -/
def one32 : EReal := Ideal.ofBits .f32 0x3F800000#32
/-- The squared distance as the two squared norms minus twice the inner product. -/
def sqdR (u v : Fin 3 → EReal) : EReal :=
  ((0 + ∑ k, u k * u k) + (0 + ∑ k, v k * v k)) - two32 * ∑ k, u k * v k
/-- From a squared distance to the distance: clamp at zero; where the clamped value is positive its square root, else zero
    (the root is taken of `1` where the value is not positive, and that root is then not selected). -/
def root (d : EReal) : EReal :=
  Scalar.select (Ideal.cmp .ogt (max d 0) 0)
    (Ideal.sqrt (Scalar.select (Ideal.cmp .ogt (max d 0) 0) (max d 0) one32)) 0

end Sage

end
-- ==== Proof.SpecLaws.lean ====
/-
  Two facts about the row functions: a node's embedding is real when everything it is computed from is real, and the
  two spellings of the squared distance agree on real vectors.
-/
import proofs.«141129_j26620207301224_1_alg».proof.Proof.Spec

noncomputable section

open scoped BigOperators

namespace Sage

open Idealize.ShloMosaic

/-- The float `2.0` denotes the real `2`. -/
theorem two32_eq : two32 = ((2 : ℝ) : EReal) := by
  unfold two32
  simp [Ideal.ofBits, Ideal.ieee, -EReal.coe_mul]; norm_num

/-- Zero is real. -/
private theorem isReal_zero : IsReal 0 := ⟨0, EReal.coe_zero.symm⟩

/-- The sum of two reals is real. -/
private theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two reals is real. -/
private theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The larger of two reals is real. -/
private theorem isReal_max {x y : EReal} (hx : IsReal x) (hy : IsReal y) : IsReal (max x y) := by
  obtain ⟨a, rfl⟩ := hx
  obtain ⟨b, rfl⟩ := hy
  rcases le_total a b with hab | hab
  · exact ⟨b, max_eq_right (EReal.coe_le_coe_iff.mpr hab)⟩
  · exact ⟨a, max_eq_left (EReal.coe_le_coe_iff.mpr hab)⟩

/-- A finite sum of real terms is real. -/
private theorem isReal_sum {ι : Type} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact isReal_add (hf a (Finset.mem_insert_self a s)) (ih (fun i hi => hf i (Finset.mem_insert_of_mem hi)))

/-- A row times a matrix column is real when both are. -/
private theorem isReal_dot {n : Nat} (h w : Fin n → EReal) (hh : ∀ k, IsReal (h k)) (hw : ∀ k, IsReal (w k)) :
    IsReal (∑ k, h k * w k) :=
  isReal_sum Finset.univ _ (fun k _ => isReal_mul (hh k) (hw k))

/-- A dense layer of real rows, matrices and biases is real. -/
theorem dense_real {n d : Nat} (h : Fin n → EReal) (W : Fin n → Fin d → EReal) (b : Fin d → EReal)
    (hh : ∀ k, IsReal (h k)) (hW : ∀ k j, IsReal (W k j)) (hb : ∀ j, IsReal (b j)) : ∀ j, IsReal (dense h W b j) := by
  intro j
  unfold dense
  exact isReal_add (isReal_dot h (fun k => W k j) hh (fun k => hW k j)) (hb j)

/-- The rectifier of a real row is real. -/
theorem relu_real {d : Nat} (v : Fin d → EReal) (hv : ∀ j, IsReal (v j)) : ∀ j, IsReal (relu v j) := by
  intro j
  unfold relu
  exact isReal_max (hv j) isReal_zero

/-- The first layer of real data is real. -/
theorem sage_real {n d : Nat} (a x : Fin n → EReal) (Wl : Fin n → Fin d → EReal) (bl : Fin d → EReal) (Wr : Fin n → Fin d → EReal)
    (ha : ∀ k, IsReal (a k)) (hx : ∀ k, IsReal (x k)) (hWl : ∀ k j, IsReal (Wl k j)) (hbl : ∀ j, IsReal (bl j))
    (hWr : ∀ k j, IsReal (Wr k j)) : ∀ j, IsReal (sage a x Wl bl Wr j) := by
  intro j
  unfold sage
  exact isReal_add (isReal_add (isReal_dot a (fun k => Wl k j) ha (fun k => hWl k j)) (hbl j))
    (isReal_dot x (fun k => Wr k j) hx (fun k => hWr k j))

/-- A node's embedding is real when its neighbourhood mean, its features, and every weight and bias are. -/
theorem mlp_real (a x : Fin 512 → EReal) (Wl : Fin 512 → Fin 256 → EReal) (bl : Fin 256 → EReal) (Wr : Fin 512 → Fin 256 → EReal)
    (Wa : Fin 256 → Fin 128 → EReal) (ba : Fin 128 → EReal) (W1 : Fin 128 → Fin 64 → EReal) (b1 : Fin 64 → EReal)
    (W2 : Fin 64 → Fin 32 → EReal) (b2 : Fin 32 → EReal) (W3 : Fin 32 → Fin 3 → EReal) (b3 : Fin 3 → EReal)
    (ha : ∀ k, IsReal (a k)) (hx : ∀ k, IsReal (x k)) (hWl : ∀ k j, IsReal (Wl k j)) (hbl : ∀ j, IsReal (bl j))
    (hWr : ∀ k j, IsReal (Wr k j)) (hWa : ∀ k j, IsReal (Wa k j)) (hba : ∀ j, IsReal (ba j))
    (hW1 : ∀ k j, IsReal (W1 k j)) (hb1 : ∀ j, IsReal (b1 j)) (hW2 : ∀ k j, IsReal (W2 k j)) (hb2 : ∀ j, IsReal (b2 j))
    (hW3 : ∀ k j, IsReal (W3 k j)) (hb3 : ∀ j, IsReal (b3 j)) :
    ∀ q, IsReal (mlp a x Wl bl Wr Wa ba W1 b1 W2 b2 W3 b3 q) := by
  unfold mlp
  have h0 := relu_real _ (sage_real a x Wl bl Wr ha hx hWl hbl hWr)
  have h1 := relu_real _ (dense_real _ Wa ba h0 hWa hba)
  have h2 := relu_real _ (dense_real _ W1 b1 h1 hW1 hb1)
  have h3 := relu_real _ (dense_real _ W2 b2 h2 hW2 hb2)
  exact dense_real _ W3 b3 h3 hW3 hb3

/-- On real vectors the sum of the squared coordinate differences is the two squared norms minus twice the inner product. -/
theorem sqd_eq_sqdR (u v : Fin 3 → EReal) (hu : ∀ k, IsReal (u k)) (hv : ∀ k, IsReal (v k)) : sqd u v = sqdR u v := by
  obtain ⟨a0, ha0⟩ := hu 0
  obtain ⟨a1, ha1⟩ := hu 1
  obtain ⟨a2, ha2⟩ := hu 2
  obtain ⟨c0, hc0⟩ := hv 0
  obtain ⟨c1, hc1⟩ := hv 1
  obtain ⟨c2, hc2⟩ := hv 2
  unfold sqd sqdR
  rw [Fin.sum_univ_three, Fin.sum_univ_three, Fin.sum_univ_three, two32_eq, ha0, ha1, ha2, hc0, hc1, hc2,
    ← EReal.coe_zero]
  simp only [← EReal.coe_mul, ← EReal.coe_add, ← EReal.coe_sub]
  congr 1
  ring

end Sage

end
-- ==== Proof.Aggr.lean ====
/-
  The neighbourhood mean: for every node the sum of the feature rows of the edges that end at it (each edge's source
  index read with wrap-around of negatives and clamped into range), divided by the larger of the number of those edges and one.
  It is real wherever the features are: a row of the sum is a finite sum of feature entries, and the divisor is a real
  number not below one.
-/
import proofs.«141129_j26620207301224_1_alg».proof.Proof.Gen.KernelIdeal
import proofs.«141129_j26620207301224_1_alg».proof.Proof.Spec

noncomputable section

open scoped BigOperators

namespace Sage

open Cert.KernelIdeal Cert.KernelIdeal.Facts₀ Idealize.ShloMosaic Idealize.ShloMosaic.ValueIdx

/-- The neighbourhood mean of the feature table `x0` along the edge list `x1` (row 0 the sources, row 1 the targets). -/
def aggr (x0 : FVec Ideal S10000x512 .f32) (x1 : IVec S2x160000 32) : FVec Ideal S10000x512 .f32 :=
  Host.divf (F := Ideal) (Host.scatterAdd (F := Ideal) scatter_S10000x512_S160000x1_S160000x512_1_0_0_1 (broadcastInDim S10000x512 ![] bcast_S_S10000x512 (constant (F := Ideal) S_ .f32 0x00000000#32)) (broadcastInDim S160000x1 ![0] bcast_S160000_S160000x1_0 (shapeCast _ (extractStridedSlice S1x160000 ![1, 0] x1 slices_S2x160000_S1x160000_1_0) shapeCasts_S1x160000_S160000)) (Host.gather gather_S10000x512_S160000x1_S160000x512_1_0_n_n_0_1_1512 x0 (broadcastInDim S160000x1 ![0] bcast_S160000_S160000x1_0 (select (cmpi .slt (shapeCast _ (extractStridedSlice S1x160000 ![0, 0] x1 slices_S2x160000_S1x160000_0_0) shapeCasts_S1x160000_S160000) (broadcastInDim S160000 ![] bcast_S_S160000 (constantI S_ 32 0#32))) (addi (shapeCast _ (extractStridedSlice S1x160000 ![0, 0] x1 slices_S2x160000_S1x160000_0_0) shapeCasts_S1x160000_S160000) (broadcastInDim S160000 ![] bcast_S_S160000 (constantI S_ 32 10000#32))) (shapeCast _ (extractStridedSlice S1x160000 ![0, 0] x1 slices_S2x160000_S1x160000_0_0) shapeCasts_S1x160000_S160000))))) (broadcastInDim S10000x512 ![0, 1] bcast_S10000x1_S10000x512_0_1 (broadcastInDim S10000x1 ![0] bcast_S10000_S10000x1_0 (maximumf (F := Ideal) (Host.scatterAdd (F := Ideal) scatter_S10000_S160000x1_S160000_n_0_0_1 (broadcastInDim S10000 ![] bcast_S_S10000 (constant (F := Ideal) S_ .f32 0x00000000#32)) (broadcastInDim S160000x1 ![0] bcast_S160000_S160000x1_0 (shapeCast _ (extractStridedSlice S1x160000 ![1, 0] x1 slices_S2x160000_S1x160000_1_0) shapeCasts_S1x160000_S160000)) (broadcastInDim S160000 ![] bcast_S_S160000 (constant (F := Ideal) S_ .f32 0x3F800000#32))) (broadcastInDim S10000 ![] bcast_S_S10000 (constant (F := Ideal) S_ .f32 0x3F800000#32)))))

/-- Zero is real. -/
private theorem isReal_zero : IsReal 0 := ⟨0, rfl⟩

/-- A sum of two reals is real. -/
private theorem isReal_add {a b : EReal} (ha : IsReal a) (hb : IsReal b) : IsReal (a + b) := by
  obtain ⟨r, rfl⟩ := ha
  obtain ⟨t, rfl⟩ := hb
  exact ⟨r + t, (EReal.coe_add r t).symm⟩

/-- A finite sum of reals is real. -/
private theorem isReal_sum {ι : Type} (s : Finset ι) (f : ι → EReal) (hf : ∀ j, IsReal (f j)) : IsReal (∑ j ∈ s, f j) := by
  classical
  induction s using Finset.induction_on with
  | empty => rw [Finset.sum_empty]; exact isReal_zero
  | insert a s ha ih => rw [Finset.sum_insert ha]; exact isReal_add (hf a) ih

/-- A finite sum of reals that are not negative is a real that is not negative. -/
private theorem sum_nonneg_real {ι : Type} (s : Finset ι) (f : ι → EReal) (hf : ∀ j, ∃ r : ℝ, 0 ≤ r ∧ f j = (r : EReal)) :
    ∃ r : ℝ, 0 ≤ r ∧ ∑ j ∈ s, f j = (r : EReal) := by
  classical
  induction s using Finset.induction_on with
  | empty => exact ⟨0, le_refl 0, by rw [Finset.sum_empty]; rfl⟩
  | insert a s ha ih =>
    obtain ⟨r, hr, er⟩ := hf a
    obtain ⟨t, ht, et⟩ := ih
    exact ⟨r + t, add_nonneg hr ht, by rw [Finset.sum_insert ha, er, et, EReal.coe_add]⟩

/-- The accumulating scatter of real updates into a real operand is real at every index. -/
private theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd (F := Ideal) d x idx upd i) := by
  intro i
  show IsReal (x i + ∑ j ∈ Finset.univ.filter (fun j => d.resultIdx? j idx = some i), upd j)
  exact isReal_add (hx i) (isReal_sum _ _ hu)

/-- The accumulating scatter of updates that are not negative into an operand that is not negative is, at every index,
    a real that is not negative. -/
private theorem scatterAdd_nonneg {s si su : Shape} {w : Nat} (d : ScatterDims s si su) (x : FVec Ideal s .f32) (idx : IVec si w)
    (upd : FVec Ideal su .f32) (hx : ∀ i, ∃ r : ℝ, 0 ≤ r ∧ x i = (r : EReal))
    (hu : ∀ j, ∃ r : ℝ, 0 ≤ r ∧ upd j = (r : EReal)) :
    ∀ i, ∃ r : ℝ, 0 ≤ r ∧ Host.scatterAdd (F := Ideal) d x idx upd i = (r : EReal) := by
  intro i
  show ∃ r : ℝ, 0 ≤ r ∧ x i + ∑ j ∈ Finset.univ.filter (fun j => d.resultIdx? j idx = some i), upd j = (r : EReal)
  obtain ⟨r, hr, er⟩ := hx i
  obtain ⟨t, ht, et⟩ := sum_nonneg_real (Finset.univ.filter (fun j => d.resultIdx? j idx = some i)) upd hu
  exact ⟨r + t, add_nonneg hr ht, by rw [er, et, EReal.coe_add]⟩

/-- The pattern of the float zero denotes zero. -/
private theorem zero_pattern : Ideal.ofBits .f32 0x00000000#32 = 0 := by
  simp [Ideal.ofBits, Ideal.ieee]

/-- The pattern of the float one denotes one. -/
private theorem one_pattern : Ideal.ofBits .f32 0x3F800000#32 = ((1 : ℝ) : EReal) := by
  simp [Ideal.ofBits, Ideal.ieee, -EReal.coe_mul]; norm_num

/-- The larger of a real that is not negative and one is a real not below one. -/
private theorem max_one_real {c : EReal} (hc : ∃ r : ℝ, 0 ≤ r ∧ c = (r : EReal)) :
    ∃ r : ℝ, 1 ≤ r ∧ max c ((1 : ℝ) : EReal) = (r : EReal) := by
  obtain ⟨r, _, rfl⟩ := hc
  exact ⟨max r 1, le_max_right r 1, (EReal.coe_strictMono.monotone.map_max (a := r) (b := 1)).symm⟩

/-- A real divided by a real not below one is real. -/
private theorem div_real {a b : EReal} (ha : IsReal a) (hb : ∃ r : ℝ, 1 ≤ r ∧ b = (r : EReal)) : IsReal (Ideal.div a b) := by
  obtain ⟨x, rfl⟩ := ha
  obtain ⟨y, hy, rfl⟩ := hb
  have hy0 : y ≠ 0 := by intro e; rw [e] at hy; linarith
  rw [Ideal.div_coe hy0]
  exact ⟨x * (1 / y), (EReal.coe_mul x (1 / y)).symm⟩

/-- The entrywise quotient of a real table by a table of reals not below one is real. -/
private theorem divf_real {s : Shape} (S D : FVec Ideal s .f32) (i : s.Idx) (hS : IsReal (S i))
    (hD : ∃ r : ℝ, 1 ≤ r ∧ D i = (r : EReal)) : IsReal (Host.divf (F := Ideal) S D i) :=
  div_real hS hD

/-- Every entry of a broadcast is an entry of its operand, so a property of all entries of the operand passes to it. -/
private theorem broadcastInDim_all {α : Type} {s t : Shape} (dims : Fin s.rank → Fin t.rank) (hb : s.BroadcastsInDim t dims)
    (x : s.Idx → α) (P : α → Prop) (hx : ∀ k, P (x k)) : ∀ j, P (broadcastInDim t dims hb x j) :=
  fun _ => hx _

/-- Every entry of a constant table is the value its pattern denotes. -/
private theorem constant_all {s : Shape} (b : BitVec 32) (P : EReal → Prop) (hb : P (Ideal.ofBits .f32 b)) :
    ∀ k, P (constant (F := Ideal) s .f32 b k) :=
  fun _ => hb

/-- The entrywise larger of a table of reals that are not negative and a table of ones is a table of reals not below one. -/
private theorem maximumf_one_real {s : Shape} (C O : FVec Ideal s .f32) (hC : ∀ k, ∃ r : ℝ, 0 ≤ r ∧ C k = (r : EReal))
    (hO : ∀ k, O k = ((1 : ℝ) : EReal)) : ∀ k, ∃ r : ℝ, 1 ≤ r ∧ maximumf (F := Ideal) C O k = (r : EReal) := by
  intro k
  show ∃ r : ℝ, 1 ≤ r ∧ max (C k) (O k) = (r : EReal)
  rw [hO k]
  exact max_one_real (hC k)

/-- The neighbourhood mean of a real feature table is real. -/
theorem aggr_real (x0 : FVec Ideal S10000x512 .f32) (x1 : IVec S2x160000 32)
    (h : ∀ i, IsReal (x0 i)) : ∀ i, IsReal (aggr x0 x1 i) := by
  intro i
  unfold aggr
  refine divf_real _ _ i ?_ ?_
  · refine scatterAdd_real _ _ _ _ ?_ (fun j => h _) i
    exact broadcastInDim_all _ _ _ IsReal (constant_all _ IsReal (by rw [zero_pattern]; exact isReal_zero))
  · refine broadcastInDim_all _ _ _ (fun c => ∃ r : ℝ, 1 ≤ r ∧ c = (r : EReal)) ?_ i
    refine broadcastInDim_all _ _ _ (fun c => ∃ r : ℝ, 1 ≤ r ∧ c = (r : EReal)) ?_
    refine maximumf_one_real _ _ ?_ ?_
    · refine scatterAdd_nonneg _ _ _ _ ?_ ?_
      · exact broadcastInDim_all _ _ _ (fun c => ∃ r : ℝ, 0 ≤ r ∧ c = (r : EReal))
          (constant_all _ (fun c => ∃ r : ℝ, 0 ≤ r ∧ c = (r : EReal)) ⟨0, le_refl 0, zero_pattern⟩)
      · exact broadcastInDim_all _ _ _ (fun c => ∃ r : ℝ, 0 ≤ r ∧ c = (r : EReal))
          (constant_all _ (fun c => ∃ r : ℝ, 0 ≤ r ∧ c = (r : EReal)) ⟨1, zero_le_one, one_pattern⟩)
    · exact broadcastInDim_all _ _ _ (fun c => c = ((1 : ℝ) : EReal)) (constant_all _ (fun c => c = ((1 : ℝ) : EReal)) one_pattern)

end Sage

end
-- ==== Proof.KHost.lean ====
/-
  What the host operations around the two kernels leave in the buffers the kernels read. Before the first kernel: the
  neighbourhood mean, and each bias vector re-laid as a one-row matrix; the argument arrays untouched. Between the two
  kernels: the embeddings as the first kernel left them, and their transpose.
-/
import proofs.«141129_j26620207301224_1_alg».proof.Proof.Gen.KernelIdeal.Frame
import proofs.«141129_j26620207301224_1_alg».proof.Proof.Aggr
import Idealize.ShloMosaic.Lib.StableHlo.Run
import Idealize.ShloMosaic.Lib.Pipeline.Value
import Idealize.ShloMosaic.Lib.ValueLayout

set_option maxRecDepth 16384

noncomputable section

namespace Cert.KernelIdeal.HostReads

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The first kernel's first operand is the neighbourhood mean of the features along the edges: the host operations
    before the kernel, composed in order, are the mean's defining term. -/
theorem V1_v22 (c : Dev nD) : (V1 m ρ c main_v22 : S10000x512.Idx → EReal) = Sage.aggr (m ((c : Thread nD τ).loc main_arg0)) (m ((c : Thread nD τ).loc main_arg1)) := by
  dsimp only [V1, W1]
  after_results_simp
  rfl

/-- Argument 0 is as launched when the first kernel starts. -/
theorem V1_arg0 (c : Dev nD) : V1 m ρ c main_arg0 = m ((c : Thread nD τ).loc main_arg0) :=
  (StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans rfl
/-- Argument 2 is as launched when the first kernel starts. -/
theorem V1_arg2 (c : Dev nD) : V1 m ρ c main_arg2 = m ((c : Thread nD τ).loc main_arg2) :=
  (StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans rfl
/-- Argument 4 is as launched when the first kernel starts. -/
theorem V1_arg4 (c : Dev nD) : V1 m ρ c main_arg4 = m ((c : Thread nD τ).loc main_arg4) :=
  (StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans rfl
/-- Argument 5 is as launched when the first kernel starts. -/
theorem V1_arg5 (c : Dev nD) : V1 m ρ c main_arg5 = m ((c : Thread nD τ).loc main_arg5) :=
  (StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans rfl
/-- Argument 7 is as launched when the first kernel starts. -/
theorem V1_arg7 (c : Dev nD) : V1 m ρ c main_arg7 = m ((c : Thread nD τ).loc main_arg7) :=
  (StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans rfl
/-- Argument 9 is as launched when the first kernel starts. -/
theorem V1_arg9 (c : Dev nD) : V1 m ρ c main_arg9 = m ((c : Thread nD τ).loc main_arg9) :=
  (StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans rfl
/-- Argument 11 is as launched when the first kernel starts. -/
theorem V1_arg11 (c : Dev nD) : V1 m ρ c main_arg11 = m ((c : Thread nD τ).loc main_arg11) :=
  (StableHlo.after_of_forall_not_mem (b := Proc.devRef .tc main_arg11) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans rfl

/-- A vector re-laid as a one-row matrix reads, at `(0, j)`, the vector at `j`: both have row-major position `j`. -/
private theorem reshape_row {d : Nat} (x : (⟨1, ![d]⟩ : Shape).Idx → EReal)
    (h : (⟨1, ![d]⟩ : Shape).ShapeCasts ⟨2, ![1, d]⟩) (j : Fin d) :
    shapeCast ⟨2, ![1, d]⟩ x h (ix2 0 j) = x (ix1 j) := by
  refine shapeCast_apply x h _ _ ?_
  rw [Shape.rowMajor_val_one, Shape.rowMajor_val_two]
  show j.val = 0 * d + j.val
  omega

/-- The bias of argument 3, re-laid as a one-row matrix. -/
theorem V1_v23 (c : Dev nD) (j : Fin 256) : (V1 m ρ c main_v23 : S1x256.Idx → EReal) (ix2 0 j) = (m ((c : Thread nD τ).loc main_arg3) : S256.Idx → EReal) (ix1 j) := by
  have e : (V1 m ρ c main_v23 : S1x256.Idx → EReal)
      = shapeCast S1x256 (m ((c : Thread nD τ).loc main_arg3) : S256.Idx → EReal) shapeCasts_S256_S1x256 := by
    dsimp only [V1, W1]; after_results; rfl
  rw [e]
  exact reshape_row _ _ j
/-- The bias of argument 6, re-laid as a one-row matrix. -/
theorem V1_v24 (c : Dev nD) (j : Fin 128) : (V1 m ρ c main_v24 : S1x128.Idx → EReal) (ix2 0 j) = (m ((c : Thread nD τ).loc main_arg6) : S128.Idx → EReal) (ix1 j) := by
  have e : (V1 m ρ c main_v24 : S1x128.Idx → EReal)
      = shapeCast S1x128 (m ((c : Thread nD τ).loc main_arg6) : S128.Idx → EReal) shapeCasts_S128_S1x128 := by
    dsimp only [V1, W1]; after_results; rfl
  rw [e]
  exact reshape_row _ _ j
/-- The bias of argument 8, re-laid as a one-row matrix. -/
theorem V1_v25 (c : Dev nD) (j : Fin 64) : (V1 m ρ c main_v25 : S1x64.Idx → EReal) (ix2 0 j) = (m ((c : Thread nD τ).loc main_arg8) : S64.Idx → EReal) (ix1 j) := by
  have e : (V1 m ρ c main_v25 : S1x64.Idx → EReal)
      = shapeCast S1x64 (m ((c : Thread nD τ).loc main_arg8) : S64.Idx → EReal) shapeCasts_S64_S1x64 := by
    dsimp only [V1, W1]; after_results; rfl
  rw [e]
  exact reshape_row _ _ j
/-- The bias of argument 10, re-laid as a one-row matrix. -/
theorem V1_v26 (c : Dev nD) (j : Fin 32) : (V1 m ρ c main_v26 : S1x32.Idx → EReal) (ix2 0 j) = (m ((c : Thread nD τ).loc main_arg10) : S32.Idx → EReal) (ix1 j) := by
  have e : (V1 m ρ c main_v26 : S1x32.Idx → EReal)
      = shapeCast S1x32 (m ((c : Thread nD τ).loc main_arg10) : S32.Idx → EReal) shapeCasts_S32_S1x32 := by
    dsimp only [V1, W1]; after_results; rfl
  rw [e]
  exact reshape_row _ _ j
/-- The bias of argument 12, re-laid as a one-row matrix. -/
theorem V1_v27 (c : Dev nD) (j : Fin 3) : (V1 m ρ c main_v27 : S1x3.Idx → EReal) (ix2 0 j) = (m ((c : Thread nD τ).loc main_arg12) : S3.Idx → EReal) (ix1 j) := by
  have e : (V1 m ρ c main_v27 : S1x3.Idx → EReal)
      = shapeCast S1x3 (m ((c : Thread nD τ).loc main_arg12) : S3.Idx → EReal) shapeCasts_S3_S1x3 := by
    dsimp only [V1, W1]; after_results; rfl
  rw [e]
  exact reshape_row _ _ j

/-- Between the kernels the embeddings' buffer is not written: it holds what the first kernel left. -/
private theorem V3_v28_W2 (c : Dev nD) : V3 m ρ c main_v28 = W2 m ρ c (Proc.devRef .tc main_v28) :=
  StableHlo.after_of_forall_not_mem (b := Proc.devRef .tc main_v28) _ _ (List.forall_iff_forall_mem.mp (by
    simp only [hostOps1, List.Forall, StableHlo.unary_writes, Finset.mem_singleton]
    exact StableHlo.devRef_ne_of_ne (by decide)))

/-- When the second kernel starts, the embeddings are what the first kernel left. -/
theorem V3_v28 (c : Dev nD) : V3 m ρ c main_v28 = (dat0 (V1 m ρ) c).arrAt 13 cfg0.N :=
  (V3_v28_W2 m ρ c).trans (W2_arr m ρ c 13)

/-- When the second kernel starts, its second operand is the transpose of the embeddings. -/
theorem V3_v29 (c : Dev nD) (k : Fin 3) (j : Fin 10000) :
    (V3 m ρ c main_v29 : S3x10000.Idx → EReal) (ix2 k j) = (V3 m ρ c main_v28 : S10000x3.Idx → EReal) (ix2 j k) := by
  have e : (V3 m ρ c main_v29 : S3x10000.Idx → EReal)
      = transpose S3x10000 [1, 0] (W2 m ρ c (Proc.devRef .tc main_v28) : S10000x3.Idx → EReal) transposes_S10000x3_S3x10000_1_0 := by
    dsimp only [V3, W3]; after_results
  rw [e, V3_v28_W2 m ρ c]
  exact transpose_ix2_apply _ _ k j

end Cert.KernelIdeal.HostReads

end
-- ==== Proof.KPay0.lean ====
/-
  The first kernel's body on one block of a thousand rows, read at an entry: row `p` of the block it stores is the
  embedding of row `p` of its two input blocks. Each matrix product into a zero accumulator is the sum over the
  contracted coordinate; the narrowing of the operands is the identity on the extended reals; the bias, held as a
  one-row matrix, is added to every row; the first layer adds the two products before the bias, which is the same
  sum in another order.
-/
import proofs.«141129_j26620207301224_1_alg».proof.Proof.Gen.KernelIdeal.Skeleton
import proofs.«141129_j26620207301224_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay0

open Cert.KernelIdeal Cert.KernelIdeal.Gen Idealize.ShloMosaic Idealize.ShloMosaic.ValueIdx

/-! ## The rectifier and the bias row at an entry -/

/-- The maximum with the zero splat is the maximum with zero. -/
theorem relu_at {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- A one-row matrix cast to its own shape and spread over all the rows reads, at an entry of column j, its entry (0, j). -/
theorem bias_at {a b : ℕ} (v : (⟨2, ![1, b]⟩ : Shape).Idx → EReal) (hc : (⟨2, ![1, b]⟩ : Shape).ShapeCasts ⟨2, ![1, b]⟩)
    (hb : (⟨2, ![1, b]⟩ : Shape).Broadcasts ⟨2, ![a, b]⟩) (p : Fin a) (j : Fin b) :
    broadcastTo ⟨2, ![a, b]⟩ (shapeCast ⟨2, ![1, b]⟩ v hc) hb (ix2 p j) = v (ix2 (0 : Fin 1) j) := by
  rw [shapeCast_self, broadcastTo_1b_ab_apply]

/-! ## The five matrix products at an entry

Each product into the zero accumulator, read at entry (p, j), is the sum over the contracted coordinate k of the left
operand at (p, k) times the right operand at (k, j). -/

theorem lhs_512_256_0 (i : S1000x256.Idx) (q : dot_S1000x512_S512x256_S1000x256_1_0_0_1_n_n.contr.Idx) :
    (dot_S1000x512_S512x256_S1000x256_1_0_0_1_n_n.lhsIdx i q 0).val = (i 0).val := by
  unfold DotDims.lhsIdx
  rw [dif_neg (show ¬(0 : Fin S1000x512.rank) ∈ dot_S1000x512_S512x256_S1000x256_1_0_0_1_n_n.lhsBatch by decide), dif_pos (show (0 : Fin S1000x512.rank) ∈ dot_S1000x512_S512x256_S1000x256_1_0_0_1_n_n.lhsNonContracting by decide)]
  rfl
theorem lhs_512_256_1 (i : S1000x256.Idx) (q : dot_S1000x512_S512x256_S1000x256_1_0_0_1_n_n.contr.Idx) :
    (dot_S1000x512_S512x256_S1000x256_1_0_0_1_n_n.lhsIdx i q 1).val = (q ⟨0, by decide⟩).val :=
  dot_S1000x512_S512x256_S1000x256_1_0_0_1_n_n.lhsIdx_val_of_single rfl i q
theorem rhs_512_256_0 (i : S1000x256.Idx) (q : dot_S1000x512_S512x256_S1000x256_1_0_0_1_n_n.contr.Idx) :
    (dot_S1000x512_S512x256_S1000x256_1_0_0_1_n_n.rhsIdx i q 0).val = (q ⟨0, by decide⟩).val :=
  dot_S1000x512_S512x256_S1000x256_1_0_0_1_n_n.rhsIdx_val_of_single rfl i q
theorem rhs_512_256_1 (i : S1000x256.Idx) (q : dot_S1000x512_S512x256_S1000x256_1_0_0_1_n_n.contr.Idx) :
    (dot_S1000x512_S512x256_S1000x256_1_0_0_1_n_n.rhsIdx i q 1).val = (i 1).val := by
  unfold DotDims.rhsIdx
  rw [dif_neg (show ¬(1 : Fin S512x256.rank) ∈ dot_S1000x512_S512x256_S1000x256_1_0_0_1_n_n.rhsBatch by decide), dif_pos (show (1 : Fin S512x256.rank) ∈ dot_S1000x512_S512x256_S1000x256_1_0_0_1_n_n.rhsNonContracting by decide)]
  rfl

theorem mm_512_256 (l : FVec Ideal S1000x512 .bf16) (r : FVec Ideal S512x256 .bf16) (p : Fin 1000) (j : Fin 256) :
    matmul (F := Ideal) dot_S1000x512_S512x256_S1000x256_1_0_0_1_n_n none l r (constant (F := Ideal) S1000x256 .f32 0x00000000#32) (ix2 p j)
      = ∑ k : Fin 512, l (ix2 p k) * r (ix2 k j) := by
  show FloatOps.matmul _ _ _ _ _ _ = _
  rw [Ideal.matmul_constant_zero_apply, ← Equiv.sum_comp (ValueIdx.contrEquiv1 dot_S1000x512_S512x256_S1000x256_1_0_0_1_n_n 512 rfl rfl).symm]
  refine Finset.sum_congr rfl fun k _ => ?_
  have hk := ValueIdx.contrEquiv1_symm_val dot_S1000x512_S512x256_S1000x256_1_0_0_1_n_n 512 rfl rfl k
  have el : dot_S1000x512_S512x256_S1000x256_1_0_0_1_n_n.lhsIdx (ix2 p j) ((ValueIdx.contrEquiv1 dot_S1000x512_S512x256_S1000x256_1_0_0_1_n_n 512 rfl rfl).symm k) = ix2 p k := funext fun a => Fin.ext (by
    match a with
    | ⟨0, _⟩ => exact lhs_512_256_0 _ _
    | ⟨1, _⟩ => exact (lhs_512_256_1 _ _).trans hk)
  have er : dot_S1000x512_S512x256_S1000x256_1_0_0_1_n_n.rhsIdx (ix2 p j) ((ValueIdx.contrEquiv1 dot_S1000x512_S512x256_S1000x256_1_0_0_1_n_n 512 rfl rfl).symm k) = ix2 k j := funext fun a => Fin.ext (by
    match a with
    | ⟨0, _⟩ => exact (rhs_512_256_0 _ _).trans hk
    | ⟨1, _⟩ => exact rhs_512_256_1 _ _)
  rw [el, er]

theorem lhs_256_128_0 (i : S1000x128.Idx) (q : dot_S1000x256_S256x128_S1000x128_1_0_0_1_n_n.contr.Idx) :
    (dot_S1000x256_S256x128_S1000x128_1_0_0_1_n_n.lhsIdx i q 0).val = (i 0).val := by
  unfold DotDims.lhsIdx
  rw [dif_neg (show ¬(0 : Fin S1000x256.rank) ∈ dot_S1000x256_S256x128_S1000x128_1_0_0_1_n_n.lhsBatch by decide), dif_pos (show (0 : Fin S1000x256.rank) ∈ dot_S1000x256_S256x128_S1000x128_1_0_0_1_n_n.lhsNonContracting by decide)]
  rfl
theorem lhs_256_128_1 (i : S1000x128.Idx) (q : dot_S1000x256_S256x128_S1000x128_1_0_0_1_n_n.contr.Idx) :
    (dot_S1000x256_S256x128_S1000x128_1_0_0_1_n_n.lhsIdx i q 1).val = (q ⟨0, by decide⟩).val :=
  dot_S1000x256_S256x128_S1000x128_1_0_0_1_n_n.lhsIdx_val_of_single rfl i q
theorem rhs_256_128_0 (i : S1000x128.Idx) (q : dot_S1000x256_S256x128_S1000x128_1_0_0_1_n_n.contr.Idx) :
    (dot_S1000x256_S256x128_S1000x128_1_0_0_1_n_n.rhsIdx i q 0).val = (q ⟨0, by decide⟩).val :=
  dot_S1000x256_S256x128_S1000x128_1_0_0_1_n_n.rhsIdx_val_of_single rfl i q
theorem rhs_256_128_1 (i : S1000x128.Idx) (q : dot_S1000x256_S256x128_S1000x128_1_0_0_1_n_n.contr.Idx) :
    (dot_S1000x256_S256x128_S1000x128_1_0_0_1_n_n.rhsIdx i q 1).val = (i 1).val := by
  unfold DotDims.rhsIdx
  rw [dif_neg (show ¬(1 : Fin S256x128.rank) ∈ dot_S1000x256_S256x128_S1000x128_1_0_0_1_n_n.rhsBatch by decide), dif_pos (show (1 : Fin S256x128.rank) ∈ dot_S1000x256_S256x128_S1000x128_1_0_0_1_n_n.rhsNonContracting by decide)]
  rfl

theorem mm_256_128 (l : FVec Ideal S1000x256 .bf16) (r : FVec Ideal S256x128 .bf16) (p : Fin 1000) (j : Fin 128) :
    matmul (F := Ideal) dot_S1000x256_S256x128_S1000x128_1_0_0_1_n_n none l r (constant (F := Ideal) S1000x128 .f32 0x00000000#32) (ix2 p j)
      = ∑ k : Fin 256, l (ix2 p k) * r (ix2 k j) := by
  show FloatOps.matmul _ _ _ _ _ _ = _
  rw [Ideal.matmul_constant_zero_apply, ← Equiv.sum_comp (ValueIdx.contrEquiv1 dot_S1000x256_S256x128_S1000x128_1_0_0_1_n_n 256 rfl rfl).symm]
  refine Finset.sum_congr rfl fun k _ => ?_
  have hk := ValueIdx.contrEquiv1_symm_val dot_S1000x256_S256x128_S1000x128_1_0_0_1_n_n 256 rfl rfl k
  have el : dot_S1000x256_S256x128_S1000x128_1_0_0_1_n_n.lhsIdx (ix2 p j) ((ValueIdx.contrEquiv1 dot_S1000x256_S256x128_S1000x128_1_0_0_1_n_n 256 rfl rfl).symm k) = ix2 p k := funext fun a => Fin.ext (by
    match a with
    | ⟨0, _⟩ => exact lhs_256_128_0 _ _
    | ⟨1, _⟩ => exact (lhs_256_128_1 _ _).trans hk)
  have er : dot_S1000x256_S256x128_S1000x128_1_0_0_1_n_n.rhsIdx (ix2 p j) ((ValueIdx.contrEquiv1 dot_S1000x256_S256x128_S1000x128_1_0_0_1_n_n 256 rfl rfl).symm k) = ix2 k j := funext fun a => Fin.ext (by
    match a with
    | ⟨0, _⟩ => exact (rhs_256_128_0 _ _).trans hk
    | ⟨1, _⟩ => exact rhs_256_128_1 _ _)
  rw [el, er]

theorem lhs_128_64_0 (i : S1000x64.Idx) (q : dot_S1000x128_S128x64_S1000x64_1_0_0_1_n_n.contr.Idx) :
    (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
theorem lhs_128_64_1 (i : S1000x64.Idx) (q : dot_S1000x128_S128x64_S1000x64_1_0_0_1_n_n.contr.Idx) :
    (dot_S1000x128_S128x64_S1000x64_1_0_0_1_n_n.lhsIdx i q 1).val = (q ⟨0, by decide⟩).val :=
  dot_S1000x128_S128x64_S1000x64_1_0_0_1_n_n.lhsIdx_val_of_single rfl i q
theorem rhs_128_64_0 (i : S1000x64.Idx) (q : dot_S1000x128_S128x64_S1000x64_1_0_0_1_n_n.contr.Idx) :
    (dot_S1000x128_S128x64_S1000x64_1_0_0_1_n_n.rhsIdx i q 0).val = (q ⟨0, by decide⟩).val :=
  dot_S1000x128_S128x64_S1000x64_1_0_0_1_n_n.rhsIdx_val_of_single rfl i q
theorem rhs_128_64_1 (i : S1000x64.Idx) (q : dot_S1000x128_S128x64_S1000x64_1_0_0_1_n_n.contr.Idx) :
    (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

theorem mm_128_64 (l : FVec Ideal S1000x128 .bf16) (r : FVec Ideal S128x64 .bf16) (p : Fin 1000) (j : Fin 64) :
    matmul (F := Ideal) dot_S1000x128_S128x64_S1000x64_1_0_0_1_n_n none l r (constant (F := Ideal) S1000x64 .f32 0x00000000#32) (ix2 p j)
      = ∑ k : Fin 128, l (ix2 p k) * r (ix2 k j) := by
  show FloatOps.matmul _ _ _ _ _ _ = _
  rw [Ideal.matmul_constant_zero_apply, ← Equiv.sum_comp (ValueIdx.contrEquiv1 dot_S1000x128_S128x64_S1000x64_1_0_0_1_n_n 128 rfl rfl).symm]
  refine Finset.sum_congr rfl fun k _ => ?_
  have hk := ValueIdx.contrEquiv1_symm_val dot_S1000x128_S128x64_S1000x64_1_0_0_1_n_n 128 rfl rfl k
  have el : dot_S1000x128_S128x64_S1000x64_1_0_0_1_n_n.lhsIdx (ix2 p j) ((ValueIdx.contrEquiv1 dot_S1000x128_S128x64_S1000x64_1_0_0_1_n_n 128 rfl rfl).symm k) = ix2 p k := funext fun a => Fin.ext (by
    match a with
    | ⟨0, _⟩ => exact lhs_128_64_0 _ _
    | ⟨1, _⟩ => exact (lhs_128_64_1 _ _).trans hk)
  have er : dot_S1000x128_S128x64_S1000x64_1_0_0_1_n_n.rhsIdx (ix2 p j) ((ValueIdx.contrEquiv1 dot_S1000x128_S128x64_S1000x64_1_0_0_1_n_n 128 rfl rfl).symm k) = ix2 k j := funext fun a => Fin.ext (by
    match a with
    | ⟨0, _⟩ => exact (rhs_128_64_0 _ _).trans hk
    | ⟨1, _⟩ => exact rhs_128_64_1 _ _)
  rw [el, er]

theorem lhs_64_32_0 (i : S1000x32.Idx) (q : dot_S1000x64_S64x32_S1000x32_1_0_0_1_n_n.contr.Idx) :
    (dot_S1000x64_S64x32_S1000x32_1_0_0_1_n_n.lhsIdx i q 0).val = (i 0).val := by
  unfold DotDims.lhsIdx
  rw [dif_neg (show ¬(0 : Fin S1000x64.rank) ∈ dot_S1000x64_S64x32_S1000x32_1_0_0_1_n_n.lhsBatch by decide), dif_pos (show (0 : Fin S1000x64.rank) ∈ dot_S1000x64_S64x32_S1000x32_1_0_0_1_n_n.lhsNonContracting by decide)]
  rfl
theorem lhs_64_32_1 (i : S1000x32.Idx) (q : dot_S1000x64_S64x32_S1000x32_1_0_0_1_n_n.contr.Idx) :
    (dot_S1000x64_S64x32_S1000x32_1_0_0_1_n_n.lhsIdx i q 1).val = (q ⟨0, by decide⟩).val :=
  dot_S1000x64_S64x32_S1000x32_1_0_0_1_n_n.lhsIdx_val_of_single rfl i q
theorem rhs_64_32_0 (i : S1000x32.Idx) (q : dot_S1000x64_S64x32_S1000x32_1_0_0_1_n_n.contr.Idx) :
    (dot_S1000x64_S64x32_S1000x32_1_0_0_1_n_n.rhsIdx i q 0).val = (q ⟨0, by decide⟩).val :=
  dot_S1000x64_S64x32_S1000x32_1_0_0_1_n_n.rhsIdx_val_of_single rfl i q
theorem rhs_64_32_1 (i : S1000x32.Idx) (q : dot_S1000x64_S64x32_S1000x32_1_0_0_1_n_n.contr.Idx) :
    (dot_S1000x64_S64x32_S1000x32_1_0_0_1_n_n.rhsIdx i q 1).val = (i 1).val := by
  unfold DotDims.rhsIdx
  rw [dif_neg (show ¬(1 : Fin S64x32.rank) ∈ dot_S1000x64_S64x32_S1000x32_1_0_0_1_n_n.rhsBatch by decide), dif_pos (show (1 : Fin S64x32.rank) ∈ dot_S1000x64_S64x32_S1000x32_1_0_0_1_n_n.rhsNonContracting by decide)]
  rfl

theorem mm_64_32 (l : FVec Ideal S1000x64 .bf16) (r : FVec Ideal S64x32 .bf16) (p : Fin 1000) (j : Fin 32) :
    matmul (F := Ideal) dot_S1000x64_S64x32_S1000x32_1_0_0_1_n_n none l r (constant (F := Ideal) S1000x32 .f32 0x00000000#32) (ix2 p j)
      = ∑ k : Fin 64, l (ix2 p k) * r (ix2 k j) := by
  show FloatOps.matmul _ _ _ _ _ _ = _
  rw [Ideal.matmul_constant_zero_apply, ← Equiv.sum_comp (ValueIdx.contrEquiv1 dot_S1000x64_S64x32_S1000x32_1_0_0_1_n_n 64 rfl rfl).symm]
  refine Finset.sum_congr rfl fun k _ => ?_
  have hk := ValueIdx.contrEquiv1_symm_val dot_S1000x64_S64x32_S1000x32_1_0_0_1_n_n 64 rfl rfl k
  have el : dot_S1000x64_S64x32_S1000x32_1_0_0_1_n_n.lhsIdx (ix2 p j) ((ValueIdx.contrEquiv1 dot_S1000x64_S64x32_S1000x32_1_0_0_1_n_n 64 rfl rfl).symm k) = ix2 p k := funext fun a => Fin.ext (by
    match a with
    | ⟨0, _⟩ => exact lhs_64_32_0 _ _
    | ⟨1, _⟩ => exact (lhs_64_32_1 _ _).trans hk)
  have er : dot_S1000x64_S64x32_S1000x32_1_0_0_1_n_n.rhsIdx (ix2 p j) ((ValueIdx.contrEquiv1 dot_S1000x64_S64x32_S1000x32_1_0_0_1_n_n 64 rfl rfl).symm k) = ix2 k j := funext fun a => Fin.ext (by
    match a with
    | ⟨0, _⟩ => exact (rhs_64_32_0 _ _).trans hk
    | ⟨1, _⟩ => exact rhs_64_32_1 _ _)
  rw [el, er]

theorem lhs_32_3_0 (i : S1000x3.Idx) (q : dot_S1000x32_S32x3_S1000x3_1_0_0_1_n_n.contr.Idx) :
    (dot_S1000x32_S32x3_S1000x3_1_0_0_1_n_n.lhsIdx i q 0).val = (i 0).val := by
  unfold DotDims.lhsIdx
  rw [dif_neg (show ¬(0 : Fin S1000x32.rank) ∈ dot_S1000x32_S32x3_S1000x3_1_0_0_1_n_n.lhsBatch by decide), dif_pos (show (0 : Fin S1000x32.rank) ∈ dot_S1000x32_S32x3_S1000x3_1_0_0_1_n_n.lhsNonContracting by decide)]
  rfl
theorem lhs_32_3_1 (i : S1000x3.Idx) (q : dot_S1000x32_S32x3_S1000x3_1_0_0_1_n_n.contr.Idx) :
    (dot_S1000x32_S32x3_S1000x3_1_0_0_1_n_n.lhsIdx i q 1).val = (q ⟨0, by decide⟩).val :=
  dot_S1000x32_S32x3_S1000x3_1_0_0_1_n_n.lhsIdx_val_of_single rfl i q
theorem rhs_32_3_0 (i : S1000x3.Idx) (q : dot_S1000x32_S32x3_S1000x3_1_0_0_1_n_n.contr.Idx) :
    (dot_S1000x32_S32x3_S1000x3_1_0_0_1_n_n.rhsIdx i q 0).val = (q ⟨0, by decide⟩).val :=
  dot_S1000x32_S32x3_S1000x3_1_0_0_1_n_n.rhsIdx_val_of_single rfl i q
theorem rhs_32_3_1 (i : S1000x3.Idx) (q : dot_S1000x32_S32x3_S1000x3_1_0_0_1_n_n.contr.Idx) :
    (dot_S1000x32_S32x3_S1000x3_1_0_0_1_n_n.rhsIdx i q 1).val = (i 1).val := by
  unfold DotDims.rhsIdx
  rw [dif_neg (show ¬(1 : Fin S32x3.rank) ∈ dot_S1000x32_S32x3_S1000x3_1_0_0_1_n_n.rhsBatch by decide), dif_pos (show (1 : Fin S32x3.rank) ∈ dot_S1000x32_S32x3_S1000x3_1_0_0_1_n_n.rhsNonContracting by decide)]
  rfl

theorem mm_32_3 (l : FVec Ideal S1000x32 .bf16) (r : FVec Ideal S32x3 .bf16) (p : Fin 1000) (j : Fin 3) :
    matmul (F := Ideal) dot_S1000x32_S32x3_S1000x3_1_0_0_1_n_n none l r (constant (F := Ideal) S1000x3 .f32 0x00000000#32) (ix2 p j)
      = ∑ k : Fin 32, l (ix2 p k) * r (ix2 k j) := by
  show FloatOps.matmul _ _ _ _ _ _ = _
  rw [Ideal.matmul_constant_zero_apply, ← Equiv.sum_comp (ValueIdx.contrEquiv1 dot_S1000x32_S32x3_S1000x3_1_0_0_1_n_n 32 rfl rfl).symm]
  refine Finset.sum_congr rfl fun k _ => ?_
  have hk := ValueIdx.contrEquiv1_symm_val dot_S1000x32_S32x3_S1000x3_1_0_0_1_n_n 32 rfl rfl k
  have el : dot_S1000x32_S32x3_S1000x3_1_0_0_1_n_n.lhsIdx (ix2 p j) ((ValueIdx.contrEquiv1 dot_S1000x32_S32x3_S1000x3_1_0_0_1_n_n 32 rfl rfl).symm k) = ix2 p k := funext fun a => Fin.ext (by
    match a with
    | ⟨0, _⟩ => exact lhs_32_3_0 _ _
    | ⟨1, _⟩ => exact (lhs_32_3_1 _ _).trans hk)
  have er : dot_S1000x32_S32x3_S1000x3_1_0_0_1_n_n.rhsIdx (ix2 p j) ((ValueIdx.contrEquiv1 dot_S1000x32_S32x3_S1000x3_1_0_0_1_n_n 32 rfl rfl).symm k) = ix2 k j := funext fun a => Fin.ext (by
    match a with
    | ⟨0, _⟩ => exact (rhs_32_3_0 _ _).trans hk
    | ⟨1, _⟩ => exact rhs_32_3_1 _ _)
  rw [el, er]

/-! ## The layers at an entry

Each layer is stated over a previous layer known on row p: its value at (p, k) is coordinate k of a row vector. -/

/-- The first layer: the two products are added before the bias; the sum is the same in the other order. -/
theorem layer1_at (a x : Vec Ideal S1000x512 .f32) (Wl Wr : Vec Ideal S512x256 .f32) (b : Vec Ideal S1x256 .f32)
    (hca : S1000x512.ShapeCasts S1000x512) (hc : S1x256.ShapeCasts S1x256) (hb : S1x256.Broadcasts S1000x256)
    (p : Fin 1000) (j : Fin 256) :
    maximumf
      (addf
        (addf
          (matmul (F := Ideal) dot_S1000x512_S512x256_S1000x256_1_0_0_1_n_n none
            (truncf .bf16 (shapeCast S1000x512 a hca) bitsLt_bf16_f32) (truncf .bf16 Wl bitsLt_bf16_f32)
            (constant (F := Ideal) S1000x256 .f32 0x00000000#32))
          (matmul (F := Ideal) dot_S1000x512_S512x256_S1000x256_1_0_0_1_n_n none
            (truncf .bf16 x bitsLt_bf16_f32) (truncf .bf16 Wr bitsLt_bf16_f32)
            (constant (F := Ideal) S1000x256 .f32 0x00000000#32)))
        (broadcastTo S1000x256 (shapeCast S1x256 b hc) hb))
      (broadcast S1000x256 (Scalar.ofBits (F := Ideal) .f32 0x00000000#32)) (ix2 p j)
      = Sage.relu (Sage.sage (Sage.row a p) (Sage.row x p) (Sage.mat Wl) (Sage.row b 0) (Sage.mat Wr)) j := by
  rw [relu_at, addf_apply, addf_apply, mm_512_256, mm_512_256, bias_at, shapeCast_self]
  show max (((∑ k : Fin 512, a (ix2 p k) * Wl (ix2 k j)) + ∑ k : Fin 512, x (ix2 p k) * Wr (ix2 k j)) + b (ix2 (0 : Fin 1) j)) 0
    = max (((∑ k : Fin 512, a (ix2 p k) * Wl (ix2 k j)) + b (ix2 (0 : Fin 1) j)) + ∑ k : Fin 512, x (ix2 p k) * Wr (ix2 k j)) 0
  rw [add_right_comm]

/-- The second layer on a row whose previous layer is known. -/
theorem layer2_at (h : FVec Ideal S1000x256 .f32) (W : Vec Ideal S256x128 .f32) (b : Vec Ideal S1x128 .f32)
    (hc : S1x128.ShapeCasts S1x128) (hb : S1x128.Broadcasts S1000x128)
    (p : Fin 1000) (r : Fin 256 → EReal) (hr : ∀ k : Fin 256, h (ix2 p k) = r k) (j : Fin 128) :
    maximumf
      (addf
        (matmul (F := Ideal) dot_S1000x256_S256x128_S1000x128_1_0_0_1_n_n none
          (truncf .bf16 h bitsLt_bf16_f32) (truncf .bf16 W bitsLt_bf16_f32)
          (constant (F := Ideal) S1000x128 .f32 0x00000000#32))
        (broadcastTo S1000x128 (shapeCast S1x128 b hc) hb))
      (broadcast S1000x128 (Scalar.ofBits (F := Ideal) .f32 0x00000000#32)) (ix2 p j)
      = Sage.relu (Sage.dense r (Sage.mat W) (Sage.row b 0)) j := by
  rw [relu_at, addf_apply, mm_256_128, bias_at]
  show max ((∑ k : Fin 256, h (ix2 p k) * W (ix2 k j)) + b (ix2 (0 : Fin 1) j)) 0
    = max ((∑ k : Fin 256, r k * W (ix2 k j)) + b (ix2 (0 : Fin 1) j)) 0
  simp only [hr]

/-- The third layer on a row whose previous layer is known. -/
theorem layer3_at (h : FVec Ideal S1000x128 .f32) (W : Vec Ideal S128x64 .f32) (b : Vec Ideal S1x64 .f32)
    (hc : S1x64.ShapeCasts S1x64) (hb : S1x64.Broadcasts S1000x64)
    (p : Fin 1000) (r : Fin 128 → EReal) (hr : ∀ k : Fin 128, h (ix2 p k) = r k) (j : Fin 64) :
    maximumf
      (addf
        (matmul (F := Ideal) dot_S1000x128_S128x64_S1000x64_1_0_0_1_n_n none
          (truncf .bf16 h bitsLt_bf16_f32) (truncf .bf16 W bitsLt_bf16_f32)
          (constant (F := Ideal) S1000x64 .f32 0x00000000#32))
        (broadcastTo S1000x64 (shapeCast S1x64 b hc) hb))
      (broadcast S1000x64 (Scalar.ofBits (F := Ideal) .f32 0x00000000#32)) (ix2 p j)
      = Sage.relu (Sage.dense r (Sage.mat W) (Sage.row b 0)) j := by
  rw [relu_at, addf_apply, mm_128_64, bias_at]
  show max ((∑ k : Fin 128, h (ix2 p k) * W (ix2 k j)) + b (ix2 (0 : Fin 1) j)) 0
    = max ((∑ k : Fin 128, r k * W (ix2 k j)) + b (ix2 (0 : Fin 1) j)) 0
  simp only [hr]

/-- The fourth layer on a row whose previous layer is known. -/
theorem layer4_at (h : FVec Ideal S1000x64 .f32) (W : Vec Ideal S64x32 .f32) (b : Vec Ideal S1x32 .f32)
    (hc : S1x32.ShapeCasts S1x32) (hb : S1x32.Broadcasts S1000x32)
    (p : Fin 1000) (r : Fin 64 → EReal) (hr : ∀ k : Fin 64, h (ix2 p k) = r k) (j : Fin 32) :
    maximumf
      (addf
        (matmul (F := Ideal) dot_S1000x64_S64x32_S1000x32_1_0_0_1_n_n none
          (truncf .bf16 h bitsLt_bf16_f32) (truncf .bf16 W bitsLt_bf16_f32)
          (constant (F := Ideal) S1000x32 .f32 0x00000000#32))
        (broadcastTo S1000x32 (shapeCast S1x32 b hc) hb))
      (broadcast S1000x32 (Scalar.ofBits (F := Ideal) .f32 0x00000000#32)) (ix2 p j)
      = Sage.relu (Sage.dense r (Sage.mat W) (Sage.row b 0)) j := by
  rw [relu_at, addf_apply, mm_64_32, bias_at]
  show max ((∑ k : Fin 64, h (ix2 p k) * W (ix2 k j)) + b (ix2 (0 : Fin 1) j)) 0
    = max ((∑ k : Fin 64, r k * W (ix2 k j)) + b (ix2 (0 : Fin 1) j)) 0
  simp only [hr]

/-- The last layer, with no rectifier, on a row whose previous layer is known. -/
theorem layer5_at (h : FVec Ideal S1000x32 .f32) (W : Vec Ideal S32x3 .f32) (b : Vec Ideal S1x3 .f32)
    (hc : S1x3.ShapeCasts S1x3) (hb : S1x3.Broadcasts S1000x3)
    (p : Fin 1000) (r : Fin 32 → EReal) (hr : ∀ k : Fin 32, h (ix2 p k) = r k) (j : Fin 3) :
    addf
      (matmul (F := Ideal) dot_S1000x32_S32x3_S1000x3_1_0_0_1_n_n none
        (truncf .bf16 h bitsLt_bf16_f32) (truncf .bf16 W bitsLt_bf16_f32)
        (constant (F := Ideal) S1000x3 .f32 0x00000000#32))
      (broadcastTo S1000x3 (shapeCast S1x3 b hc) hb) (ix2 p j)
      = Sage.dense r (Sage.mat W) (Sage.row b 0) j := by
  rw [addf_apply, mm_32_3, bias_at]
  show (∑ k : Fin 32, h (ix2 p k) * W (ix2 k j)) + b (ix2 (0 : Fin 1) j)
    = (∑ k : Fin 32, r k * W (ix2 k j)) + b (ix2 (0 : Fin 1) j)
  simp only [hr]

/-! ## The body's payload at an entry -/

/-- Entry `(p, q)` of the block the body stores is coordinate `q` of the embedding of row `p`. -/
theorem pay0_apply (x0 : Vec Ideal S1000x512 .f32) (x1 : Vec Ideal S1000x512 .f32) (x2 : Vec Ideal S512x256 .f32) (x3 : Vec Ideal S1x256 .f32) (x4 : Vec Ideal S512x256 .f32) (x5 : Vec Ideal S256x128 .f32) (x6 : Vec Ideal S1x128 .f32) (x7 : Vec Ideal S128x64 .f32) (x8 : Vec Ideal S1x64 .f32) (x9 : Vec Ideal S64x32 .f32) (x10 : Vec Ideal S1x32 .f32) (x11 : Vec Ideal S32x3 .f32) (x12 : Vec Ideal S1x3 .f32) (p : Fin 1000) (q : Fin 3) :
    k0_pay1 (F := Ideal) (k0_pay2 x0 x1 x2 x4 x3 x5 x6 x7) (k0_pay3 x8) x9 x10 x11 x12 (ix2 p q)
      = Sage.mlp (Sage.row x0 p) (Sage.row x1 p) (Sage.mat x2) (Sage.row x3 0) (Sage.mat x4) (Sage.mat x5) (Sage.row x6 0)
          (Sage.mat x7) (Sage.row x8 0) (Sage.mat x9) (Sage.row x10 0) (Sage.mat x11) (Sage.row x12 0) q := by
  unfold k0_pay1 k0_pay2 k0_pay3 Sage.mlp
  exact layer5_at _ _ _ _ _ p _
    (layer4_at _ _ _ _ _ p _
      (layer3_at _ _ _ _ _ p _
        (layer2_at _ _ _ _ _ p _
          (layer1_at x0 x1 x2 x4 x3 _ _ _ p)))) q

end Cert.KernelIdeal.Pay0

end
-- ==== Proof.KReg0.lean ====
/-
  What the first kernel leaves in its output array: ten blocks of a thousand rows, block `t` written by grid point `t`
  from rows `1000 t … 1000 t + 999` of the neighbourhood means and of the features and from the whole weight and bias
  arrays; the blocks tile the array, so every row `i` of the array is the embedding of row `i`.
-/
import proofs.«141129_j26620207301224_1_alg».proof.Proof.Gen.KernelIdeal.Frame
import proofs.«141129_j26620207301224_1_alg».proof.Proof.KPay0
import Idealize.ShloMosaic.Lib.Pipeline.Value

set_option maxRecDepth 16384

noncomputable section

namespace Cert.KernelIdeal.Reg0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets, as a constant function. -/
theorem offsets_zero : (![0, 0] : Fin 2 → Nat) = fun _ => 0 := funext fun a => by fin_cases a <;> rfl

/-- The block index of the three row-blocked windows at grid point `t` is `(t, 0)`. -/
theorem idx_rows : ∀ t : Fin cfg0.N,
    win0_13.index t (0 : Fin 2) = t.val ∧ win0_13.index t (1 : Fin 2) = 0
    ∧ win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The block index of every whole-array window is `(0, 0)` at every grid point. -/
theorem idx_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-! ## The input blocks, read where the point's rectangle says -/

/-- Entry `x` of window 0's block at point `t` is the array's entry `1000 t` rows further down. -/
theorem blk0_apply (c : Dev nD) (t : Fin cfg0.N) (x : S1000x512.Idx) (k : S10000x512.Idx)
    (hk0 : (k 0).val = 1000 * t.val + (x 0).val) (hk1 : (k 1).val = (x 1).val) :
    (iblk0 V c 0 t : Vec Ideal S1000x512 .f32) x = (V c main_v22 : S10000x512.Idx → EReal) k := by
  obtain ⟨-, -, e0, e1, -, -⟩ := idx_rows t
  unfold iblk0
  rw [View.read_apply]
  show V c main_v22 _ = V c main_v22 _
  congr 1
  funext a; apply Fin.ext
  match a with
  | ⟨0, _⟩ => show win0_0.index t 0 * 1000 + 1 * (x 0).val = (k 0).val; rw [e0, hk0]; omega
  | ⟨1, _⟩ => show win0_0.index t 1 * 512 + 1 * (x 1).val = (k 1).val; rw [e1, hk1]; omega

/-- Row `p` of window 0's block at point `t` is row `1000 t + p` of its array. -/
theorem row0_blk (c : Dev nD) (t : Fin cfg0.N) (p : Fin 1000) (r : Fin 10000) (hr : r.val = 1000 * t.val + p.val) :
    Sage.row (iblk0 V c 0 t : Vec Ideal S1000x512 .f32) p = Sage.row (V c main_v22 : S10000x512.Idx → EReal) r :=
  funext fun j => blk0_apply V c t (ix2 p j) (ix2 r j) hr rfl

/-- Entry `x` of window 1's block at point `t` is the array's entry `1000 t` rows further down. -/
theorem blk1_apply (c : Dev nD) (t : Fin cfg0.N) (x : S1000x512.Idx) (k : S10000x512.Idx)
    (hk0 : (k 0).val = 1000 * t.val + (x 0).val) (hk1 : (k 1).val = (x 1).val) :
    (iblk0 V c 1 t : Vec Ideal S1000x512 .f32) x = (V c main_arg0 : S10000x512.Idx → EReal) k := by
  obtain ⟨-, -, -, -, e0, e1⟩ := idx_rows t
  unfold iblk0
  rw [View.read_apply]
  show V c main_arg0 _ = V c main_arg0 _
  congr 1
  funext a; apply Fin.ext
  match a with
  | ⟨0, _⟩ => show win0_1.index t 0 * 1000 + 1 * (x 0).val = (k 0).val; rw [e0, hk0]; omega
  | ⟨1, _⟩ => show win0_1.index t 1 * 512 + 1 * (x 1).val = (k 1).val; rw [e1, hk1]; omega

/-- Row `p` of window 1's block at point `t` is row `1000 t + p` of its array. -/
theorem row1_blk (c : Dev nD) (t : Fin cfg0.N) (p : Fin 1000) (r : Fin 10000) (hr : r.val = 1000 * t.val + p.val) :
    Sage.row (iblk0 V c 1 t : Vec Ideal S1000x512 .f32) p = Sage.row (V c main_arg0 : S10000x512.Idx → EReal) r :=
  funext fun j => blk1_apply V c t (ix2 p j) (ix2 r j) hr rfl

/-- Window 2's block at every point is its whole array. -/
theorem blk2_eq (c : Dev nD) (t : Fin cfg0.N) :
    (iblk0 V c 2 t : Vec Ideal S512x256 .f32) = (V c main_arg2 : S512x256.Idx → EReal) := by
  obtain ⟨⟨e0, e1⟩, -, -, -, -, -, -, -, -, -, -⟩ := idx_whole t
  funext (x : S512x256.Idx)
  unfold iblk0
  rw [View.read_apply]
  show V c main_arg2 _ = V c main_arg2 _
  congr 1
  funext a; apply Fin.ext
  match a with
  | ⟨0, _⟩ => show win0_2.index t 0 * 512 + 1 * (x 0).val = (x 0).val; rw [e0]; omega
  | ⟨1, _⟩ => show win0_2.index t 1 * 256 + 1 * (x 1).val = (x 1).val; rw [e1]; omega

/-- Window 3's block at every point is its whole array. -/
theorem blk3_eq (c : Dev nD) (t : Fin cfg0.N) :
    (iblk0 V c 3 t : Vec Ideal S1x256 .f32) = (V c main_v23 : S1x256.Idx → EReal) := by
  obtain ⟨-, ⟨e0, e1⟩, -, -, -, -, -, -, -, -, -⟩ := idx_whole t
  funext (x : S1x256.Idx)
  unfold iblk0
  rw [View.read_apply]
  show V c main_v23 _ = V c main_v23 _
  congr 1
  funext a; apply Fin.ext
  match a with
  | ⟨0, _⟩ => show win0_3.index t 0 * 1 + 1 * (x 0).val = (x 0).val; rw [e0]; omega
  | ⟨1, _⟩ => show win0_3.index t 1 * 256 + 1 * (x 1).val = (x 1).val; rw [e1]; omega

/-- Window 4's block at every point is its whole array. -/
theorem blk4_eq (c : Dev nD) (t : Fin cfg0.N) :
    (iblk0 V c 4 t : Vec Ideal S512x256 .f32) = (V c main_arg4 : S512x256.Idx → EReal) := by
  obtain ⟨-, -, ⟨e0, e1⟩, -, -, -, -, -, -, -, -⟩ := idx_whole t
  funext (x : S512x256.Idx)
  unfold iblk0
  rw [View.read_apply]
  show V c main_arg4 _ = V c main_arg4 _
  congr 1
  funext a; apply Fin.ext
  match a with
  | ⟨0, _⟩ => show win0_4.index t 0 * 512 + 1 * (x 0).val = (x 0).val; rw [e0]; omega
  | ⟨1, _⟩ => show win0_4.index t 1 * 256 + 1 * (x 1).val = (x 1).val; rw [e1]; omega

/-- Window 5's block at every point is its whole array. -/
theorem blk5_eq (c : Dev nD) (t : Fin cfg0.N) :
    (iblk0 V c 5 t : Vec Ideal S256x128 .f32) = (V c main_arg5 : S256x128.Idx → EReal) := by
  obtain ⟨-, -, -, ⟨e0, e1⟩, -, -, -, -, -, -, -⟩ := idx_whole t
  funext (x : S256x128.Idx)
  unfold iblk0
  rw [View.read_apply]
  show V c main_arg5 _ = V c main_arg5 _
  congr 1
  funext a; apply Fin.ext
  match a with
  | ⟨0, _⟩ => show win0_5.index t 0 * 256 + 1 * (x 0).val = (x 0).val; rw [e0]; omega
  | ⟨1, _⟩ => show win0_5.index t 1 * 128 + 1 * (x 1).val = (x 1).val; rw [e1]; omega

/-- Window 6's block at every point is its whole array. -/
theorem blk6_eq (c : Dev nD) (t : Fin cfg0.N) :
    (iblk0 V c 6 t : Vec Ideal S1x128 .f32) = (V c main_v24 : S1x128.Idx → EReal) := by
  obtain ⟨-, -, -, -, ⟨e0, e1⟩, -, -, -, -, -, -⟩ := idx_whole t
  funext (x : S1x128.Idx)
  unfold iblk0
  rw [View.read_apply]
  show V c main_v24 _ = V c main_v24 _
  congr 1
  funext a; apply Fin.ext
  match a with
  | ⟨0, _⟩ => show win0_6.index t 0 * 1 + 1 * (x 0).val = (x 0).val; rw [e0]; omega
  | ⟨1, _⟩ => show win0_6.index t 1 * 128 + 1 * (x 1).val = (x 1).val; rw [e1]; omega

/-- Window 7's block at every point is its whole array. -/
theorem blk7_eq (c : Dev nD) (t : Fin cfg0.N) :
    (iblk0 V c 7 t : Vec Ideal S128x64 .f32) = (V c main_arg7 : S128x64.Idx → EReal) := by
  obtain ⟨-, -, -, -, -, ⟨e0, e1⟩, -, -, -, -, -⟩ := idx_whole t
  funext (x : S128x64.Idx)
  unfold iblk0
  rw [View.read_apply]
  show V c main_arg7 _ = V c main_arg7 _
  congr 1
  funext a; apply Fin.ext
  match a with
  | ⟨0, _⟩ => show win0_7.index t 0 * 128 + 1 * (x 0).val = (x 0).val; rw [e0]; omega
  | ⟨1, _⟩ => show win0_7.index t 1 * 64 + 1 * (x 1).val = (x 1).val; rw [e1]; omega

/-- Window 8's block at every point is its whole array. -/
theorem blk8_eq (c : Dev nD) (t : Fin cfg0.N) :
    (iblk0 V c 8 t : Vec Ideal S1x64 .f32) = (V c main_v25 : S1x64.Idx → EReal) := by
  obtain ⟨-, -, -, -, -, -, ⟨e0, e1⟩, -, -, -, -⟩ := idx_whole t
  funext (x : S1x64.Idx)
  unfold iblk0
  rw [View.read_apply]
  show V c main_v25 _ = V c main_v25 _
  congr 1
  funext a; apply Fin.ext
  match a with
  | ⟨0, _⟩ => show win0_8.index t 0 * 1 + 1 * (x 0).val = (x 0).val; rw [e0]; omega
  | ⟨1, _⟩ => show win0_8.index t 1 * 64 + 1 * (x 1).val = (x 1).val; rw [e1]; omega

/-- Window 9's block at every point is its whole array. -/
theorem blk9_eq (c : Dev nD) (t : Fin cfg0.N) :
    (iblk0 V c 9 t : Vec Ideal S64x32 .f32) = (V c main_arg9 : S64x32.Idx → EReal) := by
  obtain ⟨-, -, -, -, -, -, -, ⟨e0, e1⟩, -, -, -⟩ := idx_whole t
  funext (x : S64x32.Idx)
  unfold iblk0
  rw [View.read_apply]
  show V c main_arg9 _ = V c main_arg9 _
  congr 1
  funext a; apply Fin.ext
  match a with
  | ⟨0, _⟩ => show win0_9.index t 0 * 64 + 1 * (x 0).val = (x 0).val; rw [e0]; omega
  | ⟨1, _⟩ => show win0_9.index t 1 * 32 + 1 * (x 1).val = (x 1).val; rw [e1]; omega

/-- Window 10's block at every point is its whole array. -/
theorem blk10_eq (c : Dev nD) (t : Fin cfg0.N) :
    (iblk0 V c 10 t : Vec Ideal S1x32 .f32) = (V c main_v26 : S1x32.Idx → EReal) := by
  obtain ⟨-, -, -, -, -, -, -, -, ⟨e0, e1⟩, -, -⟩ := idx_whole t
  funext (x : S1x32.Idx)
  unfold iblk0
  rw [View.read_apply]
  show V c main_v26 _ = V c main_v26 _
  congr 1
  funext a; apply Fin.ext
  match a with
  | ⟨0, _⟩ => show win0_10.index t 0 * 1 + 1 * (x 0).val = (x 0).val; rw [e0]; omega
  | ⟨1, _⟩ => show win0_10.index t 1 * 32 + 1 * (x 1).val = (x 1).val; rw [e1]; omega

/-- Window 11's block at every point is its whole array. -/
theorem blk11_eq (c : Dev nD) (t : Fin cfg0.N) :
    (iblk0 V c 11 t : Vec Ideal S32x3 .f32) = (V c main_arg11 : S32x3.Idx → EReal) := by
  obtain ⟨-, -, -, -, -, -, -, -, -, ⟨e0, e1⟩, -⟩ := idx_whole t
  funext (x : S32x3.Idx)
  unfold iblk0
  rw [View.read_apply]
  show V c main_arg11 _ = V c main_arg11 _
  congr 1
  funext a; apply Fin.ext
  match a with
  | ⟨0, _⟩ => show win0_11.index t 0 * 32 + 1 * (x 0).val = (x 0).val; rw [e0]; omega
  | ⟨1, _⟩ => show win0_11.index t 1 * 3 + 1 * (x 1).val = (x 1).val; rw [e1]; omega

/-- Window 12's block at every point is its whole array. -/
theorem blk12_eq (c : Dev nD) (t : Fin cfg0.N) :
    (iblk0 V c 12 t : Vec Ideal S1x3 .f32) = (V c main_v27 : S1x3.Idx → EReal) := by
  obtain ⟨-, -, -, -, -, -, -, -, -, -, ⟨e0, e1⟩⟩ := idx_whole t
  funext (x : S1x3.Idx)
  unfold iblk0
  rw [View.read_apply]
  show V c main_v27 _ = V c main_v27 _
  congr 1
  funext a; apply Fin.ext
  match a with
  | ⟨0, _⟩ => show win0_12.index t 0 * 1 + 1 * (x 0).val = (x 0).val; rw [e0]; omega
  | ⟨1, _⟩ => show win0_12.index t 1 * 3 + 1 * (x 1).val = (x 1).val; rw [e1]; omega

/-! ## The output block, and the array it tiles -/

/-- The array the first kernel leaves, as one function of the region's entry contents: row by row, the embedding. -/
abbrev embedded (c : Dev nD) : S10000x3.Idx → EReal := fun idx =>
  Sage.mlp (Sage.row (V c main_v22) (idx 0)) (Sage.row (V c main_arg0) (idx 0)) (Sage.mat (V c main_arg2)) (Sage.row (V c main_v23) 0) (Sage.mat (V c main_arg4)) (Sage.mat (V c main_arg5)) (Sage.row (V c main_v24) 0) (Sage.mat (V c main_arg7)) (Sage.row (V c main_v25) 0) (Sage.mat (V c main_arg9)) (Sage.row (V c main_v26) 0) (Sage.mat (V c main_arg11)) (Sage.row (V c main_v27) 0) (idx 1)

/-- Entry `y` of the output window's block at point `t`, read off an array, is the array's entry `1000 t` rows further down. -/
theorem read13 (c : Dev nD) (t : Fin cfg0.N) (g : S10000x3.Idx → EReal) (y : S1000x3.Idx) (k : S10000x3.Idx)
    (hk0 : (k 0).val = 1000 * t.val + (y 0).val) (hk1 : (k 1).val = (y 1).val) :
    ((cfg0.win 13).blk t).view.read (Elt Ideal) g y = g k := by
  obtain ⟨e0, e1, -⟩ := idx_rows t
  rw [View.read_apply]
  show g _ = g _
  congr 1
  funext a; apply Fin.ext
  match a with
  | ⟨0, _⟩ => show win0_13.index t 0 * 1000 + 1 * (y 0).val = (k 0).val; rw [e0, hk0]; omega
  | ⟨1, _⟩ => show win0_13.index t 1 * 3 + 1 * (y 1).val = (k 1).val; rw [e1, hk1]; omega

/-- The grid has ten points. -/
theorem lt_ten (t : Fin cfg0.N) : t.val < 10 :=
  Nat.lt_of_lt_of_eq t.isLt (show cfg0.N = 10 from N_0)

/-- What point `t` writes back is block `t` of `embedded`. -/
theorem flushed_eq (c : Dev nD) (t : Fin cfg0.N) :
    (dat0 (F := Ideal) V c).flushed 13 t = ((cfg0.win 13).blk t).view.read (Elt Ideal) (embedded V c) := by
  show (cfg0.win 13).cut (grid0.coords t) ((dat0 V c).after 13 t) = _
  rw [after0_13]
  unfold out0_13
  rw [View.canon_unit_zero offsets_zero]
  simp only [View.ld_unit_zero (S := S1000x512) offsets_zero, View.ld_unit_zero (S := S512x256) offsets_zero, View.ld_unit_zero (S := S1x256) offsets_zero, View.ld_unit_zero (S := S256x128) offsets_zero, View.ld_unit_zero (S := S1x128) offsets_zero, View.ld_unit_zero (S := S128x64) offsets_zero, View.ld_unit_zero (S := S1x64) offsets_zero, View.ld_unit_zero (S := S64x32) offsets_zero, View.ld_unit_zero (S := S1x32) offsets_zero, View.ld_unit_zero (S := S32x3) offsets_zero, View.ld_unit_zero (S := S1x3) offsets_zero]
  funext y
  obtain ⟨p, q, rfl⟩ : ∃ (p : Fin 1000) (q : Fin 3), y = ix2 p q := ⟨y 0, y 1, eq_ix2 y⟩
  have ht := lt_ten t
  have hp := p.isLt
  refine (Pay0.pay0_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) p q).trans ?_
  rw [row0_blk V c t p ⟨1000 * t.val + p.val, by omega⟩ rfl, row1_blk V c t p ⟨1000 * t.val + p.val, by omega⟩ rfl,
    blk2_eq V c t, blk3_eq V c t, blk4_eq V c t, blk5_eq V c t, blk6_eq V c t, blk7_eq V c t, blk8_eq V c t, blk9_eq V c t,
    blk10_eq V c t, blk11_eq V c t, blk12_eq V c t]
  exact (read13 c t (embedded V c) (ix2 p q) (ix2 ⟨1000 * t.val + p.val, by omega⟩ q) rfl rfl).symm

/-- An index of the array is in point `t`'s block iff each coordinate is in the block's range on its axis. -/
theorem mem_blk (t : Fin cfg0.N) (i : S10000x3.Idx) :
    i ∈ ((cfg0.win 13).blk t).view.set ↔ ∀ a : Fin 2, win0_13.index t a * S1000x3.size a ≤ (i a).val ∧ (i a).val < win0_13.index t a * S1000x3.size a + S1000x3.size a := by
  show i ∈ ((View.whole main_v28).slice (win0_13.rect t)).set ↔ _
  rw [View.set_slice_whole, Rect.mem_set_unit]
  exact Iff.rfl

/-- The ten blocks tile the array: row `r` is in the block of point `r / 1000`. -/
theorem cover (i : S10000x3.Idx) :
    ∃ t : Fin cfg0.N, (cfg0.win 13).flush t = true ∧ i ∈ ((cfg0.win 13).blk t).view.set := by
  have hi0 : (i 0).val < 10000 := idx2_lt0 i
  have hi1 : (i 1).val < 3 := idx2_lt1 i
  obtain ⟨t, ht⟩ : ∃ t : Fin cfg0.N, t.val = (i 0).val / 1000 :=
    ⟨⟨(i 0).val / 1000, by rw [show cfg0.N = 10 from N_0]; omega⟩, rfl⟩
  refine ⟨t, flush0_13 t, ?_⟩
  rw [mem_blk]
  obtain ⟨e0, e1, -⟩ := idx_rows t
  intro a
  match a with
  | ⟨0, _⟩ => show win0_13.index t (0 : Fin 2) * 1000 ≤ (i 0).val ∧ (i 0).val < win0_13.index t (0 : Fin 2) * 1000 + 1000; rw [e0, ht]; omega
  | ⟨1, _⟩ => show win0_13.index t (1 : Fin 2) * 3 ≤ (i 1).val ∧ (i 1).val < win0_13.index t (1 : Fin 2) * 3 + 3; rw [e1]; omega

/-- The array the first kernel leaves is `embedded`. -/
theorem arr_eq (c : Dev nD) : (dat0 (F := Ideal) V c).arrAt 13 cfg0.N = embedded V c :=
  (dat0 (F := Ideal) V c).arrAt_eq_of_cover 13 (embedded V c) (fun t _ => flushed_eq V c t) cover

/-- Row `i` of the array the first kernel leaves is the embedding of node `i`, computed from the region's entry contents. -/
theorem final0 (c : Dev nD) (i : Fin 10000) (q : Fin 3) :
    ((dat0 (F := Ideal) V c).arrAt 13 cfg0.N : S10000x3.Idx → EReal) (ix2 i q)
      = Sage.mlp (Sage.row (V c main_v22) i) (Sage.row (V c main_arg0) i) (Sage.mat (V c main_arg2)) (Sage.row (V c main_v23) 0) (Sage.mat (V c main_arg4)) (Sage.mat (V c main_arg5)) (Sage.row (V c main_v24) 0) (Sage.mat (V c main_arg7)) (Sage.row (V c main_v25) 0) (Sage.mat (V c main_arg9)) (Sage.row (V c main_v26) 0) (Sage.mat (V c main_arg11)) (Sage.row (V c main_v27) 0) q := by
  rw [arr_eq V c]

end Cert.KernelIdeal.Reg0

end
-- ==== Proof.KPay1.lean ====
/-
  The second kernel's body on one block of eighty rows, read at an entry: entry `(p, j)` of the block it stores is the
  distance between row `p` of its first input block and column `j` of its second input, from the sum of the three
  squared coordinate differences.
-/
import proofs.«141129_j26620207301224_1_alg».proof.Proof.Gen.KernelIdeal.Skeleton
import proofs.«141129_j26620207301224_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay1

open Cert.KernelIdeal Cert.KernelIdeal.Gen Idealize.ShloMosaic Idealize.ShloMosaic.ValueIdx

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `k` of the first input, cut out and spread along the rows of the block, reads at `(p, j)` the input at `(p, k)`. -/
theorem col_apply (x0 : Vec Ideal S80x3 .f32) (o : Nat) (k : Fin 3) (hk : k.val = o) (hs : S80x3.Slices ![0, o] S80x1)
    (p : Fin 80) (j : Fin 10000) :
    broadcastTo S80x10000 (extractStridedSlice S80x1 ![0, o] x0 hs) broadcasts_S80x1_S80x10000 (ix2 p j) = x0 (ix2 p k) := by
  rw [broadcastTo_a1_ab_apply]
  exact slice2_axis1_apply o x0 hs p (0 : Fin 1) k (by rw [hk]; rfl)

/-- Row `k` of the second input, cut out and spread down the block, reads at `(p, j)` the input at `(k, j)`. -/
theorem row_apply (x1 : Vec Ideal S3x10000 .f32) (o : Nat) (k : Fin 3) (hk : k.val = o) (hs : S3x10000.Slices ![o, 0] S1x10000)
    (p : Fin 80) (j : Fin 10000) :
    broadcastTo S80x10000 (extractStridedSlice S1x10000 ![o, 0] x1 hs) broadcasts_S1x10000_S80x10000 (ix2 p j) = x1 (ix2 k j) := by
  rw [broadcastTo_1b_ab_apply]
  exact slice2_axis0_apply o x1 hs (0 : Fin 1) j k (by rw [hk]; rfl)

/-- A square root of a block read at an entry is the square root of the entry. -/
theorem sqrt_apply {s : Shape} {φ : FTy} (a : FVec Ideal s φ) (i : s.Idx) : sqrt a i = Ideal.sqrt (a i) := rfl

/-- Entry `(p, j)` of the block the body stores. -/
theorem pay1_apply (x0 : Vec Ideal S80x3 .f32) (x1 : Vec Ideal S3x10000 .f32) (p : Fin 80) (j : Fin 10000) :
    k1_pay1 (F := Ideal) x0 x1 (ix2 p j) = Sage.root (Sage.sqd (Sage.row x0 p) (fun k => x1 (ix2 k j))) := by
  unfold k1_pay1
  simp only [shapeCast_self, select_apply, cmpf_apply, sqrt_apply, maximumf_apply, addf_apply, mulf_apply, subf_apply,
    broadcast_apply, col_apply x0 0 0 rfl _ p j, col_apply x0 1 1 rfl _ p j, col_apply x0 2 2 rfl _ p j,
    row_apply x1 0 0 rfl _ p j, row_apply x1 1 1 rfl _ p j, row_apply x1 2 2 rfl _ p j,
    Ideal.cmpf_def, Ideal.ofBits_def, Ideal.ofBits_zero_f32]
  rfl

end Cert.KernelIdeal.Pay1

end
-- ==== Proof.KReg1.lean ====
/-
  What the second kernel leaves in its output array: a hundred and twenty-five blocks of eighty rows, block `t` written by
  grid point `t` from rows `80 t … 80 t + 79` of the embeddings and from the whole transposed table; the blocks tile
  the array, so entry `(i, j)` is the distance between embedding `i` and column `j` of the transposed table.
-/
import proofs.«141129_j26620207301224_1_alg».proof.Proof.Gen.KernelIdeal.Frame
import proofs.«141129_j26620207301224_1_alg».proof.Proof.KPay1
import Idealize.ShloMosaic.Lib.Pipeline.Value

set_option maxRecDepth 16384

noncomputable section

namespace Cert.KernelIdeal.Reg1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The offsets of a whole-block access are zero on both axes. -/
theorem zero_offsets : (![0, 0] : Fin 2 → Nat) = fun _ => 0 := funext fun a => by fin_cases a <;> rfl

/-- The block indices at grid point `t`: the output and the embeddings are at block `t` along the rows and block `0`
    along the columns; the transposed table is at block `(0, 0)` at every point. -/
theorem block_indices : ∀ t : Fin cfg1.N,
    win1_2.index t (0 : Fin 2) = t.val ∧ win1_2.index t (1 : Fin 2) = 0
    ∧ win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- Entry `(p, k)` of the embeddings' block at point `t` is entry `(80 t + p, k)` of the embeddings. -/
theorem rows_block_apply (c : Dev nD) (t : Fin cfg1.N) (x : S80x3.Idx) (k : S10000x3.Idx)
    (hk0 : (k 0).val = 80 * t.val + (x 0).val) (hk1 : (k 1).val = (x 1).val) :
    (iblk1 V c 0 t : Vec Ideal S80x3 .f32) x = (V c main_v28 : S10000x3.Idx → EReal) k := by
  obtain ⟨e0, e1, e2, e3, e4, e5⟩ := block_indices t
  unfold iblk1
  rw [View.read_apply]
  show V c main_v28 _ = V c main_v28 k
  congr 1
  funext a
  apply Fin.ext
  match a with
  | ⟨0, _⟩ => show win1_0.index t 0 * 80 + 1 * (x 0).val = (k 0).val; rw [e2, hk0]; omega
  | ⟨1, _⟩ => show win1_0.index t 1 * 3 + 1 * (x 1).val = (k 1).val; rw [e3, hk1]; omega

/-- The transposed table's block at every point is the whole table. -/
theorem table_block_apply (c : Dev nD) (t : Fin cfg1.N) (x : S3x10000.Idx) :
    (iblk1 V c 1 t : Vec Ideal S3x10000 .f32) x = (V c main_v29 : S3x10000.Idx → EReal) x := by
  obtain ⟨e0, e1, e2, e3, e4, e5⟩ := block_indices t
  unfold iblk1
  rw [View.read_apply]
  show V c main_v29 _ = V c main_v29 x
  congr 1
  funext a
  apply Fin.ext
  match a with
  | ⟨0, _⟩ => show win1_1.index t 0 * 3 + 1 * (x 0).val = (x 0).val; rw [e4]; omega
  | ⟨1, _⟩ => show win1_1.index t 1 * 10000 + 1 * (x 1).val = (x 1).val; rw [e5]; omega

/-- The stored block at an entry whose two coordinates are `p` and `j`: the distance between row `p` of the first
    input block and column `j` of the second. -/
theorem stored_at (x0 : Vec Ideal S80x3 .f32) (x1 : Vec Ideal S3x10000 .f32) (z : S80x10000.Idx) (p : Fin 80) (j : Fin 10000)
    (hz0 : (z 0).val = p.val) (hz1 : (z 1).val = j.val) :
    k1_pay1 (F := Ideal) x0 x1 z = Sage.root (Sage.sqd (Sage.row x0 p) (fun k => x1 (ix2 k j))) := by
  have e : z = ix2 p j := by
    funext a; apply Fin.ext
    match a with
    | ⟨0, _⟩ => exact hz0
    | ⟨1, _⟩ => exact hz1
  rw [e]; exact Pay1.pay1_apply x0 x1 p j

/-- The distance computed from the blocks at point `t`, at row `p` of the block and column `j`, is the distance between
    embedding `80 t + p` and column `j` of the transposed table. -/
theorem entry_of_blocks (c : Dev nD) (t : Fin cfg1.N) (p : Fin 80) (j : Fin 10000) (i j' : Fin 10000)
    (hi : i.val = 80 * t.val + p.val) (hj : j'.val = j.val) :
    Sage.root (Sage.sqd (Sage.row (iblk1 V c 0 t : Vec Ideal S80x3 .f32) p) (fun k => (iblk1 V c 1 t : Vec Ideal S3x10000 .f32) (ix2 k j)))
      = Sage.root (Sage.sqd (Sage.row (V c main_v28) i) (fun k => (V c main_v29 : S3x10000.Idx → EReal) (ix2 k j'))) := by
  obtain rfl : j' = j := Fin.ext hj
  have h0 : Sage.row (iblk1 V c 0 t : Vec Ideal S80x3 .f32) p = Sage.row (V c main_v28) i :=
    funext fun k => rows_block_apply V c t (ix2 p k) (ix2 i k) hi rfl
  have h1 : (fun k => (iblk1 V c 1 t : Vec Ideal S3x10000 .f32) (ix2 k j')) = fun k => (V c main_v29 : S3x10000.Idx → EReal) (ix2 k j') :=
    funext fun k => table_block_apply V c t (ix2 k j')
  rw [h0, h1]

/-- The whole table of distances: entry `(i, j)` is the distance between embedding `i` and column `j` of the
    transposed table. -/
def dist (c : Dev nD) : S10000x10000.Idx → EReal := fun idx =>
  Sage.root (Sage.sqd (Sage.row (V c main_v28) (idx 0)) (fun k => (V c main_v29 : S3x10000.Idx → EReal) (ix2 k (idx 1))))

/-- What point `t` writes back is rows `80 t … 80 t + 79` of the table of distances. -/
theorem written_back_eq (c : Dev nD) (t : Fin cfg1.N) :
    (dat1 (F := Ideal) V c).flushed 2 t = ((cfg1.win 2).blk t).view.read (Elt Ideal) (dist V c) := by
  show (cfg1.win 2).cut (grid1.coords t) ((dat1 V c).after 2 t) = _
  rw [after1_2]
  unfold out1_2
  rw [View.canon_unit_zero zero_offsets]
  simp only [View.ld_unit_zero (S := S80x3) zero_offsets, View.ld_unit_zero (S := S3x10000) zero_offsets]
  funext y
  rw [View.read_apply]
  obtain ⟨e0, e1, e2, e3, e4, e5⟩ := block_indices t
  have hy0 : (y 0).val < 80 := (y 0).isLt
  have hy1 : (y 1).val < 10000 := (y 1).isLt
  show k1_pay1 (F := Ideal) (iblk1 V c 0 t) (iblk1 V c 1 t) ((win1 2).xinj (grid1.coords t) y) = dist V c (((cfg1.win 2).blk t).view.emb y)
  refine (stored_at (iblk1 V c 0 t) (iblk1 V c 1 t) ((win1 2).xinj (grid1.coords t) y) ⟨(y 0).val, hy0⟩ ⟨(y 1).val, hy1⟩ rfl rfl).trans ?_
  unfold dist
  refine entry_of_blocks V c t ⟨(y 0).val, hy0⟩ ⟨(y 1).val, hy1⟩ ((((cfg1.win 2).blk t).view.emb y) 0) ((((cfg1.win 2).blk t).view.emb y) 1) ?_ ?_
  · show win1_2.index t 0 * 80 + 1 * (y 0).val = 80 * t.val + (y 0).val
    rw [e0]; omega
  · show win1_2.index t 1 * 10000 + 1 * (y 1).val = (y 1).val
    rw [e1]; omega

/-- An index of the array is in point `t`'s block iff each coordinate is in the block's range on its axis. -/
theorem mem_rows_block (t : Fin cfg1.N) (i : S10000x10000.Idx) :
    i ∈ ((cfg1.win 2).blk t).view.set ↔ ∀ a : Fin 2, win1_2.index t a * S80x10000.size a ≤ (i a).val ∧ (i a).val < win1_2.index t a * S80x10000.size a + S80x10000.size a := by
  show i ∈ ((View.whole main_v30).slice (win1_2.rect t)).set ↔ _
  rw [View.set_slice_whole, Rect.mem_set_unit]
  exact Iff.rfl

/-- The blocks tile the array: row `r` lies in the block of point `r / 80`. -/
theorem rows_cover (i : S10000x10000.Idx) : ∃ t : Fin cfg1.N, (cfg1.win 2).flush t = true ∧ i ∈ ((cfg1.win 2).blk t).view.set := by
  have hi0 : (i 0).val < 10000 := (i 0).isLt
  have hi1 : (i 1).val < 10000 := (i 1).isLt
  have hN : cfg1.N = 125 := N_1
  obtain ⟨t, ht⟩ : ∃ t : Fin cfg1.N, t.val = (i 0).val / 80 := ⟨⟨(i 0).val / 80, by omega⟩, rfl⟩
  obtain ⟨e0, e1, -⟩ := block_indices t
  refine ⟨t, flush1_2 t, ?_⟩
  rw [mem_rows_block]
  intro a
  match a with
  | ⟨0, _⟩ =>
    show win1_2.index t 0 * 80 ≤ (i 0).val ∧ (i 0).val < win1_2.index t 0 * 80 + 80
    rw [e0, ht]; omega
  | ⟨1, _⟩ =>
    show win1_2.index t 1 * 10000 ≤ (i 1).val ∧ (i 1).val < win1_2.index t 1 * 10000 + 10000
    rw [e1]; omega

/-- Entry `(i, j)` of the array the second kernel leaves, from the region's entry contents. -/
theorem final1 (c : Dev nD) (i j : Fin 10000) :
    ((dat1 (F := Ideal) V c).arrAt 2 cfg1.N : S10000x10000.Idx → EReal) (ix2 i j)
      = Sage.root (Sage.sqd (Sage.row (V c main_v28) i) (fun k => (V c main_v29 : S3x10000.Idx → EReal) (ix2 k j))) := by
  have h := (dat1 (F := Ideal) V c).arrAt_eq_of_cover 2 (dist V c) (fun t _ => written_back_eq V c t) rows_cover
  refine (congrFun h (ix2 i j)).trans ?_
  rfl

end Cert.KernelIdeal.Reg1

end
-- ==== Proof.RefH.lean ====
/-
  The reference up to the embeddings, read at an entry: row `i` of its table of embeddings is the embedding of node `i`
  from row `i` of the neighbourhood means and of the features. Every matrix product on the host is the sum over the
  contracted coordinate; each bias is broadcast over the rows.
-/
import proofs.«141129_j26620207301224_1_alg».proof.Proof.Gen.ReferenceIdeal.Read
import proofs.«141129_j26620207301224_1_alg».proof.Proof.Aggr
import Idealize.ShloMosaic.Lib.ValueIdx
import Idealize.ShloMosaic.PureOps.Ideal.Laws

noncomputable section

open scoped BigOperators

namespace Cert.ReferenceIdeal.RefH

open Cert.ReferenceIdeal Idealize.ShloMosaic Idealize.ShloMosaic.ValueIdx

/-! Index bookkeeping: the entry of a product at row `i`, column `j` reads the left factor at `(i, k)` and the right factor at
    `(k, j)`; a bias broadcast over the rows is read at its column. -/
private theorem lidx23 (i : Fin 10000) (j : Fin 256) (k : Fin 512) : Read.lidx_main_v23 (ix2 i j) k = ix2 i k :=
  funext fun a => Fin.ext (by match a with | ⟨0, _⟩ => rfl | ⟨1, _⟩ => rfl)
private theorem ridx23 (i : Fin 10000) (j : Fin 256) (k : Fin 512) : Read.ridx_main_v23 (ix2 i j) k = ix2 k j :=
  funext fun a => Fin.ext (by match a with | ⟨0, _⟩ => rfl | ⟨1, _⟩ => rfl)
private theorem lidx27 (i : Fin 10000) (j : Fin 256) (k : Fin 512) : Read.lidx_main_v27 (ix2 i j) k = ix2 i k :=
  funext fun a => Fin.ext (by match a with | ⟨0, _⟩ => rfl | ⟨1, _⟩ => rfl)
private theorem ridx27 (i : Fin 10000) (j : Fin 256) (k : Fin 512) : Read.ridx_main_v27 (ix2 i j) k = ix2 k j :=
  funext fun a => Fin.ext (by match a with | ⟨0, _⟩ => rfl | ⟨1, _⟩ => rfl)
private theorem bidx25 (i : Fin 10000) (j : Fin 256) : Read.idx_main_v24 (Read.idx_main_v25 (ix2 i j)) = ix1 j :=
  funext fun a => Fin.ext (by match a with | ⟨0, _⟩ => rfl)
private theorem lidx30 (i : Fin 10000) (j : Fin 128) (k : Fin 256) : Read.lidx_main_v30 (ix2 i j) k = ix2 i k :=
  funext fun a => Fin.ext (by match a with | ⟨0, _⟩ => rfl | ⟨1, _⟩ => rfl)
private theorem ridx30 (i : Fin 10000) (j : Fin 128) (k : Fin 256) : Read.ridx_main_v30 (ix2 i j) k = ix2 k j :=
  funext fun a => Fin.ext (by match a with | ⟨0, _⟩ => rfl | ⟨1, _⟩ => rfl)
private theorem bidx32 (i : Fin 10000) (j : Fin 128) : Read.idx_main_v31 (Read.idx_main_v32 (ix2 i j)) = ix1 j :=
  funext fun a => Fin.ext (by match a with | ⟨0, _⟩ => rfl)
private theorem lidx35 (i : Fin 10000) (j : Fin 64) (k : Fin 128) : Read.lidx_main_v35 (ix2 i j) k = ix2 i k :=
  funext fun a => Fin.ext (by match a with | ⟨0, _⟩ => rfl | ⟨1, _⟩ => rfl)
private theorem ridx35 (i : Fin 10000) (j : Fin 64) (k : Fin 128) : Read.ridx_main_v35 (ix2 i j) k = ix2 k j :=
  funext fun a => Fin.ext (by match a with | ⟨0, _⟩ => rfl | ⟨1, _⟩ => rfl)
private theorem bidx37 (i : Fin 10000) (j : Fin 64) : Read.idx_main_v36 (Read.idx_main_v37 (ix2 i j)) = ix1 j :=
  funext fun a => Fin.ext (by match a with | ⟨0, _⟩ => rfl)
private theorem lidx40 (i : Fin 10000) (j : Fin 32) (k : Fin 64) : Read.lidx_main_v40 (ix2 i j) k = ix2 i k :=
  funext fun a => Fin.ext (by match a with | ⟨0, _⟩ => rfl | ⟨1, _⟩ => rfl)
private theorem ridx40 (i : Fin 10000) (j : Fin 32) (k : Fin 64) : Read.ridx_main_v40 (ix2 i j) k = ix2 k j :=
  funext fun a => Fin.ext (by match a with | ⟨0, _⟩ => rfl | ⟨1, _⟩ => rfl)
private theorem bidx42 (i : Fin 10000) (j : Fin 32) : Read.idx_main_v41 (Read.idx_main_v42 (ix2 i j)) = ix1 j :=
  funext fun a => Fin.ext (by match a with | ⟨0, _⟩ => rfl)
private theorem lidx45 (i : Fin 10000) (j : Fin 3) (k : Fin 32) : Read.lidx_main_v45 (ix2 i j) k = ix2 i k :=
  funext fun a => Fin.ext (by match a with | ⟨0, _⟩ => rfl | ⟨1, _⟩ => rfl)
private theorem ridx45 (i : Fin 10000) (j : Fin 3) (k : Fin 32) : Read.ridx_main_v45 (ix2 i j) k = ix2 k j :=
  funext fun a => Fin.ext (by match a with | ⟨0, _⟩ => rfl | ⟨1, _⟩ => rfl)
private theorem bidx47 (i : Fin 10000) (j : Fin 3) : Read.idx_main_v46 (Read.idx_main_v47 (ix2 i j)) = ix1 j :=
  funext fun a => Fin.ext (by match a with | ⟨0, _⟩ => rfl)

/-- The reference's neighbourhood mean is the same chain of host operations as the kernel program's. -/
theorem ref_aggr (x0 : (⟨S10000x512, .f32⟩ : BufTy).Contents (Elt Ideal)) (x1 : (⟨S2x160000, .i32⟩ : BufTy).Contents (Elt Ideal)) :
    Read.val_main_v22 (F := Ideal) x0 x1 = Sage.aggr x0 x1 := by
  simp only [Read.val_main_v22, Read.val_main_v21, Read.val_main_v20, Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_c, Read.val_main_c_0, Read.val_main_cst, Read.val_main_cst_1, Read.val_main_cst_2, Read.val_main_cst_3, Sage.aggr]
  rfl

/-- The first layer, row by row: the neighbourhood mean times one matrix, plus the bias, plus the features times a second
    matrix, then the rectifier. -/
theorem layer1 (x0 : (⟨S10000x512, .f32⟩ : BufTy).Contents (Elt Ideal)) (x1 : (⟨S2x160000, .i32⟩ : BufTy).Contents (Elt Ideal)) (x2 : (⟨S512x256, .f32⟩ : BufTy).Contents (Elt Ideal)) (x3 : (⟨S256, .f32⟩ : BufTy).Contents (Elt Ideal)) (x4 : (⟨S512x256, .f32⟩ : BufTy).Contents (Elt Ideal)) (i : Fin 10000) :
    (fun j : Fin 256 => Read.val_main_v29 (F := Ideal) x0 x1 x2 x3 x4 (ix2 i j))
      = Sage.relu (Sage.sage (Sage.row (Read.val_main_v22 (F := Ideal) x0 x1) i) (Sage.row x0 i) (Sage.mat x2) (Sage.vec x3) (Sage.mat x4)) := by
  funext j
  rw [Read.val_main_v29_apply, Read.val_main_v28_apply, Read.val_main_v26_apply, Read.val_main_v23_apply, Read.val_main_v27_apply,
    Read.val_main_v25_apply, Read.val_main_v24_apply, Read.val_main_call0_v0_apply, Read.val_main_call0_cst_apply]
  simp only [lidx23, ridx23, lidx27, ridx27, bidx25, Ideal.addf_def, Ideal.maximumf_def, Ideal.ofBits_def, Ideal.ofBits_zero_f32]
  rfl

/-- The second layer, row by row: the previous stage's row times the matrix, plus the bias, then the rectifier. -/
theorem layer2 (x0 : (⟨S10000x512, .f32⟩ : BufTy).Contents (Elt Ideal)) (x1 : (⟨S2x160000, .i32⟩ : BufTy).Contents (Elt Ideal)) (x2 : (⟨S512x256, .f32⟩ : BufTy).Contents (Elt Ideal)) (x3 : (⟨S256, .f32⟩ : BufTy).Contents (Elt Ideal)) (x4 : (⟨S512x256, .f32⟩ : BufTy).Contents (Elt Ideal)) (x5 : (⟨S256x128, .f32⟩ : BufTy).Contents (Elt Ideal)) (x6 : (⟨S128, .f32⟩ : BufTy).Contents (Elt Ideal)) (i : Fin 10000) :
    (fun j : Fin 128 => Read.val_main_v34 (F := Ideal) x0 x1 x2 x3 x4 x5 x6 (ix2 i j))
      = Sage.relu (Sage.dense (fun k : Fin 256 => Read.val_main_v29 (F := Ideal) x0 x1 x2 x3 x4 (ix2 i k)) (Sage.mat x5) (Sage.vec x6)) := by
  funext j
  rw [Read.val_main_v34_apply, Read.val_main_v33_apply, Read.val_main_v30_apply,
    Read.val_main_v32_apply, Read.val_main_v31_apply, Read.val_main_call1_v0_apply, Read.val_main_call1_cst_apply]
  simp only [lidx30, ridx30, bidx32, Ideal.addf_def, Ideal.maximumf_def, Ideal.ofBits_def, Ideal.ofBits_zero_f32]
  rfl

/-- The third layer, row by row: the previous stage's row times the matrix, plus the bias, then the rectifier. -/
theorem layer3 (x0 : (⟨S10000x512, .f32⟩ : BufTy).Contents (Elt Ideal)) (x1 : (⟨S2x160000, .i32⟩ : BufTy).Contents (Elt Ideal)) (x2 : (⟨S512x256, .f32⟩ : BufTy).Contents (Elt Ideal)) (x3 : (⟨S256, .f32⟩ : BufTy).Contents (Elt Ideal)) (x4 : (⟨S512x256, .f32⟩ : BufTy).Contents (Elt Ideal)) (x5 : (⟨S256x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (i : Fin 10000) :
    (fun j : Fin 64 => Read.val_main_v39 (F := Ideal) x0 x1 x2 x3 x4 x5 x6 x7 x8 (ix2 i j))
      = Sage.relu (Sage.dense (fun k : Fin 128 => Read.val_main_v34 (F := Ideal) x0 x1 x2 x3 x4 x5 x6 (ix2 i k)) (Sage.mat x7) (Sage.vec x8)) := by
  funext j
  rw [Read.val_main_v39_apply, Read.val_main_v38_apply, Read.val_main_v35_apply,
    Read.val_main_v37_apply, Read.val_main_v36_apply, Read.val_main_call2_v0_apply, Read.val_main_call2_cst_apply]
  simp only [lidx35, ridx35, bidx37, Ideal.addf_def, Ideal.maximumf_def, Ideal.ofBits_def, Ideal.ofBits_zero_f32]
  rfl

/-- The fourth layer, row by row: the previous stage's row times the matrix, plus the bias, then the rectifier. -/
theorem layer4 (x0 : (⟨S10000x512, .f32⟩ : BufTy).Contents (Elt Ideal)) (x1 : (⟨S2x160000, .i32⟩ : BufTy).Contents (Elt Ideal)) (x2 : (⟨S512x256, .f32⟩ : BufTy).Contents (Elt Ideal)) (x3 : (⟨S256, .f32⟩ : BufTy).Contents (Elt Ideal)) (x4 : (⟨S512x256, .f32⟩ : BufTy).Contents (Elt Ideal)) (x5 : (⟨S256x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (i : Fin 10000) :
    (fun j : Fin 32 => Read.val_main_v44 (F := Ideal) x0 x1 x2 x3 x4 x5 x6 x7 x8 x9 x10 (ix2 i j))
      = Sage.relu (Sage.dense (fun k : Fin 64 => Read.val_main_v39 (F := Ideal) x0 x1 x2 x3 x4 x5 x6 x7 x8 (ix2 i k)) (Sage.mat x9) (Sage.vec x10)) := by
  funext j
  rw [Read.val_main_v44_apply, Read.val_main_v43_apply, Read.val_main_v40_apply,
    Read.val_main_v42_apply, Read.val_main_v41_apply, Read.val_main_call3_v0_apply, Read.val_main_call3_cst_apply]
  simp only [lidx40, ridx40, bidx42, Ideal.addf_def, Ideal.maximumf_def, Ideal.ofBits_def, Ideal.ofBits_zero_f32]
  rfl

/-- The last layer, row by row: the previous stage's row times the matrix, plus the bias; no rectifier follows. -/
theorem layer5 (x0 : (⟨S10000x512, .f32⟩ : BufTy).Contents (Elt Ideal)) (x1 : (⟨S2x160000, .i32⟩ : BufTy).Contents (Elt Ideal)) (x2 : (⟨S512x256, .f32⟩ : BufTy).Contents (Elt Ideal)) (x3 : (⟨S256, .f32⟩ : BufTy).Contents (Elt Ideal)) (x4 : (⟨S512x256, .f32⟩ : BufTy).Contents (Elt Ideal)) (x5 : (⟨S256x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x3, .f32⟩ : BufTy).Contents (Elt Ideal)) (x12 : (⟨S3, .f32⟩ : BufTy).Contents (Elt Ideal)) (i : Fin 10000) :
    (fun j : Fin 3 => Read.val_main_v48 (F := Ideal) x0 x1 x2 x3 x4 x5 x6 x7 x8 x9 x10 x11 x12 (ix2 i j))
      = Sage.dense (fun k : Fin 32 => Read.val_main_v44 (F := Ideal) x0 x1 x2 x3 x4 x5 x6 x7 x8 x9 x10 (ix2 i k)) (Sage.mat x11) (Sage.vec x12) := by
  funext j
  rw [Read.val_main_v48_apply, Read.val_main_v45_apply, Read.val_main_v47_apply, Read.val_main_v46_apply]
  simp only [lidx45, ridx45, bidx47, Ideal.addf_def]
  rfl

/-- Row `i` of the reference's embeddings is the embedding of node `i`. -/
theorem ref_h (x0 : (⟨S10000x512, .f32⟩ : BufTy).Contents (Elt Ideal)) (x1 : (⟨S2x160000, .i32⟩ : BufTy).Contents (Elt Ideal)) (x2 : (⟨S512x256, .f32⟩ : BufTy).Contents (Elt Ideal)) (x3 : (⟨S256, .f32⟩ : BufTy).Contents (Elt Ideal)) (x4 : (⟨S512x256, .f32⟩ : BufTy).Contents (Elt Ideal)) (x5 : (⟨S256x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x3, .f32⟩ : BufTy).Contents (Elt Ideal)) (x12 : (⟨S3, .f32⟩ : BufTy).Contents (Elt Ideal)) (i : Fin 10000) (q : Fin 3) :
    Read.val_main_v48 (F := Ideal) x0 x1 x2 x3 x4 x5 x6 x7 x8 x9 x10 x11 x12 (ix2 i q)
      = Sage.mlp (Sage.row (Sage.aggr x0 x1) i) (Sage.row x0 i) (Sage.mat x2) (Sage.vec x3) (Sage.mat x4) (Sage.mat x5) (Sage.vec x6)
          (Sage.mat x7) (Sage.vec x8) (Sage.mat x9) (Sage.vec x10) (Sage.mat x11) (Sage.vec x12) q := by
  have h := layer5 x0 x1 x2 x3 x4 x5 x6 x7 x8 x9 x10 x11 x12 i
  rw [layer4, layer3, layer2, layer1, ref_aggr] at h
  exact congrFun h q

end Cert.ReferenceIdeal.RefH

end
-- ==== Proof.RefOut.lean ====
/-
  The reference from its embeddings to its result, read at an entry: entry `(i, j)` is the distance between embeddings
  `i` and `j`, from the two squared norms minus twice the inner product.
-/
import proofs.«141129_j26620207301224_1_alg».proof.Proof.Gen.ReferenceIdeal.Read
import proofs.«141129_j26620207301224_1_alg».proof.Proof.Spec
import Idealize.ShloMosaic.Lib.ValueIdx
import Idealize.ShloMosaic.PureOps.Ideal.Laws

noncomputable section

open scoped BigOperators

namespace Cert.ReferenceIdeal.RefOut

open Cert.ReferenceIdeal Idealize.ShloMosaic Idealize.ShloMosaic.ValueIdx

/-- The entry of the table of squared norms that entry `(i, j)` reads along its row is summed over row `i`. -/
theorem idx_norm_row (i j : Fin 10000) (k : Fin 3) :
    Read.idx_main_v50 (Read.idx_main_v51 (Read.idx_main_v53 (ix2 i j))) k = ix2 i k :=
  funext fun a => Fin.ext (by match a with | ⟨0, _⟩ => rfl | ⟨1, _⟩ => rfl)

/-- The entry of the table of squared norms that entry `(i, j)` reads along its column is summed over row `j`. -/
theorem idx_norm_col (i j : Fin 10000) (k : Fin 3) :
    Read.idx_main_v50 (Read.idx_main_v52 (Read.idx_main_v54 (ix2 i j))) k = ix2 j k :=
  funext fun a => Fin.ext (by match a with | ⟨0, _⟩ => rfl | ⟨1, _⟩ => rfl)

/-- The left factor of term `k` of the inner product at `(i, j)` is coordinate `k` of row `i`. -/
theorem idx_dot_left (i j : Fin 10000) (k : Fin 3) : Read.lidx_main_v57 (ix2 i j) k = ix2 i k :=
  funext fun a => Fin.ext (by match a with | ⟨0, _⟩ => rfl | ⟨1, _⟩ => rfl)

/-- The right factor of term `k` of the inner product at `(i, j)`, read through the transpose, is coordinate `k` of row `j`. -/
theorem idx_dot_right (i j : Fin 10000) (k : Fin 3) : Read.idx_main_v56 (Read.ridx_main_v57 (ix2 i j) k) = ix2 j k :=
  funext fun a => Fin.ext (by match a with | ⟨0, _⟩ => rfl | ⟨1, _⟩ => rfl)

/-- Entry `(i, j)` of the reference's result, from its table of embeddings. -/
theorem ref_out (x0 : (⟨S10000x512, .f32⟩ : BufTy).Contents (Elt Ideal)) (x1 : (⟨S2x160000, .i32⟩ : BufTy).Contents (Elt Ideal)) (x2 : (⟨S512x256, .f32⟩ : BufTy).Contents (Elt Ideal)) (x3 : (⟨S256, .f32⟩ : BufTy).Contents (Elt Ideal)) (x4 : (⟨S512x256, .f32⟩ : BufTy).Contents (Elt Ideal)) (x5 : (⟨S256x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x3, .f32⟩ : BufTy).Contents (Elt Ideal)) (x12 : (⟨S3, .f32⟩ : BufTy).Contents (Elt Ideal)) (i j : Fin 10000) :
    Read.val_main_v69 (F := Ideal) x0 x1 x2 x3 x4 x5 x6 x7 x8 x9 x10 x11 x12 (ix2 i j)
      = Sage.root (Sage.sqdR (Sage.row (Read.val_main_v48 (F := Ideal) x0 x1 x2 x3 x4 x5 x6 x7 x8 x9 x10 x11 x12) i) (Sage.row (Read.val_main_v48 (F := Ideal) x0 x1 x2 x3 x4 x5 x6 x7 x8 x9 x10 x11 x12) j)) := by
  simp only [Read.val_main_v69_apply, Read.val_main_v68_apply, Read.val_main_v67_apply, Read.val_main_v65_apply,
    Read.val_main_v64_apply, Read.val_main_v62_apply, Read.val_main_v60_apply, Read.val_main_v59_apply,
    Read.val_main_v57_apply, Read.val_main_v56_apply, Read.val_main_v55_apply, Read.val_main_v54_apply,
    Read.val_main_v53_apply, Read.val_main_v52_apply, Read.val_main_v51_apply, Read.val_main_v50_apply,
    Read.val_main_v49_apply, Read.val_main_call5_v1_apply, Read.val_main_call5_v0_apply, Read.val_main_cst_10_apply,
    Read.val_main_call4_v1_apply, Read.val_main_call4_v0_apply, Read.val_main_cst_8_apply, Read.val_main_v66_apply,
    Read.val_main_cst_9_apply, Read.val_main_v63_apply, Read.val_main_cst_7_apply, Read.val_main_v61_apply,
    Read.val_main_cst_6_apply, Read.val_main_v58_apply, Read.val_main_cst_5_apply, Read.val_main_cst_4_apply,
    idx_norm_row, idx_norm_col, idx_dot_left, idx_dot_right]
  generalize Read.val_main_v48 (F := Ideal) x0 x1 x2 x3 x4 x5 x6 x7 x8 x9 x10 x11 x12 = h
  simp only [Ideal.cmpf_def, Ideal.maximumf_def, Ideal.subf_def, Ideal.addf_def, Ideal.mulf_def, Ideal.hostUnary_sqrt_def,
    Ideal.ofBits_def, Ideal.ofBits_zero_f32]
  rfl

end Cert.ReferenceIdeal.RefOut

end
-- ==== Proof.Pre.lean ====
/-
  The precondition, opened: every entry of every float argument is a real number. The precondition is a conjunction,
  one conjunct per float argument, of "every entry's absolute value is below plus infinity"; an extended real whose
  absolute value is below plus infinity is neither infinity.
-/
import proofs.«141129_j26620207301224_1_alg».proof.Defs
import proofs.«141129_j26620207301224_1_alg».proof.Proof.Gen.Pre_finite_inputs
import proofs.«141129_j26620207301224_1_alg».proof.Proof.Spec
import Idealize.ShloMosaic.Lib.ReduceAll
import Idealize.ShloMosaic.Lib.ValueIdx

noncomputable section

namespace Cert.PreReal

open Cert.KernelIdeal Idealize.ShloMosaic Idealize.ShloMosaic.ValueIdx Idealize.SL.Sem

/-- The result shape of a reduction over all axes has one index. -/
instance subsingleton_idx0 : Subsingleton Cert.Pre_finite_inputs.S_.Idx :=
  ⟨fun a b => funext fun d => d.elim0⟩

/-- The pattern of plus infinity denotes the top extended real. -/
theorem inf_eq_top : Ideal.ofBits .f32 0x7F800000#32 = (⊤ : EReal) := by
  simp [Ideal.ofBits, Ideal.ieee]

/-- An extended real whose absolute value is below the top is a real number. -/
theorem isReal_of_abs_lt_top (x : EReal) (h : max x (-x) < ⊤) : Sage.IsReal x := by
  induction x using EReal.rec with
  | bot => simp at h
  | top => simp at h
  | coe r => exact ⟨r, rfl⟩

/-- A float array all of whose entries pass the test "absolute value below plus infinity" is real entrywise. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x)
          (broadcastInDim s ![] hb (constant Cert.Pre_finite_inputs.S_ .f32 0x7F800000#32)))
        (constantI Cert.Pre_finite_inputs.S_ 1 1#1) hr hu ix0 = 1#1)
    (i : s.Idx) : Sage.IsReal (x i) := by
  have h1 := Host.reduce_andi_all _ _ hr hu ix0 e i
  have h2 : Ideal.cmp .olt (max (x i) (-(x i))) (Ideal.ofBits .f32 0x7F800000#32) = 1#1 := h1
  rw [inf_eq_top] at h2
  refine isReal_of_abs_lt_top (x i) ?_
  unfold Ideal.cmp at h2
  by_contra hn
  simp [hn] at h2

/-- Under the precondition every entry of every float argument is real. -/
theorem pre_real (m : (ℓ : Loc nD τ sig) → Buf (Elt Ideal) ℓ)
    (h : Cert.Pre_KernelIdeal (hPre_finite_inputs := Cert.Pre_finite_inputs.Gen.facts) m) (c : Dev nD) :
    (∀ i, Sage.IsReal (m ((c.tc : Thread nD τ).loc main_arg0) i))
    ∧ (∀ i, Sage.IsReal (m ((c.tc : Thread nD τ).loc main_arg2) i))
    ∧ (∀ i, Sage.IsReal (m ((c.tc : Thread nD τ).loc main_arg3) i))
    ∧ (∀ i, Sage.IsReal (m ((c.tc : Thread nD τ).loc main_arg4) i))
    ∧ (∀ i, Sage.IsReal (m ((c.tc : Thread nD τ).loc main_arg5) i))
    ∧ (∀ i, Sage.IsReal (m ((c.tc : Thread nD τ).loc main_arg6) i))
    ∧ (∀ i, Sage.IsReal (m ((c.tc : Thread nD τ).loc main_arg7) i))
    ∧ (∀ i, Sage.IsReal (m ((c.tc : Thread nD τ).loc main_arg8) i))
    ∧ (∀ i, Sage.IsReal (m ((c.tc : Thread nD τ).loc main_arg9) i))
    ∧ (∀ i, Sage.IsReal (m ((c.tc : Thread nD τ).loc main_arg10) i))
    ∧ (∀ i, Sage.IsReal (m ((c.tc : Thread nD τ).loc main_arg11) i))
    ∧ (∀ i, Sage.IsReal (m ((c.tc : Thread nD τ).loc main_arg12) i)) := by
  have h0 := congrFun (h c) ix0
  dsimp only [Cert.Pre_finite_inputs.fn, Cert.Pre_finite_inputs.fn_part1, Cert.Pre_finite_inputs.fn_part2,
    Cert.Pre_finite_inputs.fn_part3, andi] at h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all _ _ _ _ e0, real_of_all _ _ _ _ e2, real_of_all _ _ _ _ e3, real_of_all _ _ _ _ e4,
    real_of_all _ _ _ _ e5, real_of_all _ _ _ _ e6, real_of_all _ _ _ _ e7, real_of_all _ _ _ _ e8,
    real_of_all _ _ _ _ e9, real_of_all _ _ _ _ e10, real_of_all _ _ _ _ e11, real_of_all _ _ _ _ e12⟩

end Cert.PreReal

end
-- ==== Proof.Bridge.lean ====
/-
  The two programs end with the same table. Both compute every node's embedding by the same row function of the same
  neighbourhood means, features, weights and biases, so the two tables of embeddings are one table `h`, and it is real
  because the inputs are. The kernel program then takes, for every pair, the root of the sum of squared coordinate
  differences of `h`'s rows; the reference the root of the two squared norms minus twice the inner product. On real rows
  these two squared distances are equal, and the same root is taken of both.
-/
import proofs.«141129_j26620207301224_1_alg».proof.Defs
import proofs.«141129_j26620207301224_1_alg».proof.Proof.SpecLaws
import proofs.«141129_j26620207301224_1_alg».proof.Proof.KRun
import proofs.«141129_j26620207301224_1_alg».proof.Proof.KHost
import proofs.«141129_j26620207301224_1_alg».proof.Proof.KReg0
import proofs.«141129_j26620207301224_1_alg».proof.Proof.KReg1
import proofs.«141129_j26620207301224_1_alg».proof.Proof.RefH
import proofs.«141129_j26620207301224_1_alg».proof.Proof.RefOut
import proofs.«141129_j26620207301224_1_alg».proof.Proof.Pre

set_option maxRecDepth 16384

noncomputable section

namespace Cert.Bridge

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The table of embeddings, as a function of the launch memory: row `i` is the embedding of node `i`. -/
def emb (c : Dev nD) (i : Fin 10000) : Fin 3 → EReal :=
  Sage.mlp (Sage.row (Sage.aggr (m ((c : Thread nD τ).loc main_arg0)) (m ((c : Thread nD τ).loc main_arg1))) i) (Sage.row (m ((c : Thread nD τ).loc main_arg0)) i) (Sage.mat (m ((c : Thread nD τ).loc main_arg2)))
    (Sage.vec (m ((c : Thread nD τ).loc main_arg3))) (Sage.mat (m ((c : Thread nD τ).loc main_arg4))) (Sage.mat (m ((c : Thread nD τ).loc main_arg5))) (Sage.vec (m ((c : Thread nD τ).loc main_arg6)))
    (Sage.mat (m ((c : Thread nD τ).loc main_arg7))) (Sage.vec (m ((c : Thread nD τ).loc main_arg8))) (Sage.mat (m ((c : Thread nD τ).loc main_arg9))) (Sage.vec (m ((c : Thread nD τ).loc main_arg10)))
    (Sage.mat (m ((c : Thread nD τ).loc main_arg11))) (Sage.vec (m ((c : Thread nD τ).loc main_arg12)))

/-- What the first kernel leaves is the table of embeddings. -/
theorem kernel_emb (c : Dev nD) (i : Fin 10000) : Sage.row (V3 m ρ c main_v28 : S10000x3.Idx → EReal) i = emb m c i := by
  funext q
  show (V3 m ρ c main_v28 : S10000x3.Idx → EReal) (ix2 i q) = _
  rw [HostReads.V3_v28 m ρ c, Reg0.final0 (V1 m ρ) c i q]
  unfold emb
  rw [HostReads.V1_v22 m ρ c, HostReads.V1_arg0 m ρ c, HostReads.V1_arg2 m ρ c, HostReads.V1_arg4 m ρ c, HostReads.V1_arg5 m ρ c,
    HostReads.V1_arg7 m ρ c, HostReads.V1_arg9 m ρ c, HostReads.V1_arg11 m ρ c]
  have e3 : Sage.row (V1 m ρ c main_v23 : S1x256.Idx → EReal) 0 = Sage.vec (m ((c : Thread nD τ).loc main_arg3)) := funext fun j => HostReads.V1_v23 m ρ c j
  have e6 : Sage.row (V1 m ρ c main_v24 : S1x128.Idx → EReal) 0 = Sage.vec (m ((c : Thread nD τ).loc main_arg6)) := funext fun j => HostReads.V1_v24 m ρ c j
  have e8 : Sage.row (V1 m ρ c main_v25 : S1x64.Idx → EReal) 0 = Sage.vec (m ((c : Thread nD τ).loc main_arg8)) := funext fun j => HostReads.V1_v25 m ρ c j
  have e10 : Sage.row (V1 m ρ c main_v26 : S1x32.Idx → EReal) 0 = Sage.vec (m ((c : Thread nD τ).loc main_arg10)) := funext fun j => HostReads.V1_v26 m ρ c j
  have e12 : Sage.row (V1 m ρ c main_v27 : S1x3.Idx → EReal) 0 = Sage.vec (m ((c : Thread nD τ).loc main_arg12)) := funext fun j => HostReads.V1_v27 m ρ c j
  rw [e3, e6, e8, e10, e12]

/-- The kernel program's result: entry `(i, j)` is the root of the sum of squared coordinate differences of embeddings `i` and `j`. -/
theorem kernel_out (c : Dev nD) (i j : Fin 10000) :
    (W4 m ρ c (Proc.devRef .tc main_v30) : S10000x10000.Idx → EReal) (ix2 i j) = Sage.root (Sage.sqd (emb m c i) (emb m c j)) := by
  have e : (W4 m ρ c (Proc.devRef .tc main_v30) : S10000x10000.Idx → EReal) = (dat1 (V3 m ρ) c).arrAt 2 cfg1.N := W4_arr m ρ c 2
  rw [e, Reg1.final1 (V3 m ρ) c i j]
  have et : (fun k => (V3 m ρ c main_v29 : S3x10000.Idx → EReal) (ix2 k j)) = Sage.row (V3 m ρ c main_v28 : S10000x3.Idx → EReal) j :=
    funext fun k => HostReads.V3_v29 m ρ c k j
  rw [et, kernel_emb m ρ c i, kernel_emb m ρ c j]

/-- The reference's result on the same arguments: entry `(i, j)` is the root of the two squared norms minus twice the inner product. -/
theorem ref_out' (c : Dev nD) (i j : Fin 10000) :
    Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 i j) = Sage.root (Sage.sqdR (emb m c i) (emb m c j)) := by
  rw [Cert.ReferenceIdeal.RefOut.ref_out]
  have e : ∀ i', Sage.row (Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) i' = emb m c i' :=
    fun i' => funext fun q => Cert.ReferenceIdeal.RefH.ref_h _ _ _ _ _ _ _ _ _ _ _ _ _ i' q
  rw [e i, e j]

/-- Under the precondition every embedding is real. -/
theorem emb_real (hpre : Cert.Pre_KernelIdeal (hPre_finite_inputs := Cert.Pre_finite_inputs.Gen.facts) m) (c : Dev nD) (i : Fin 10000) :
    ∀ q, Sage.IsReal (emb m c i q) := by
  obtain ⟨h0, h2, h3, h4, h5, h6, h7, h8, h9, h10, h11, h12⟩ := Cert.PreReal.pre_real m hpre c
  exact Sage.mlp_real _ _ _ _ _ _ _ _ _ _ _ _ _
    (fun k => Sage.aggr_real _ _ h0 _) (fun k => h0 _) (fun k j => h2 _) (fun j => h3 _) (fun k j => h4 _) (fun k j => h5 _) (fun j => h6 _)
    (fun k j => h7 _) (fun j => h8 _) (fun k j => h9 _) (fun j => h10 _) (fun k j => h11 _) (fun j => h12 _)

end Cert.Bridge

end
-- ==== Proof.lean ====
/-
  The certificate: a two-layer graph network followed by a table of pairwise distances, as two Pallas kernels among host
  operations, against its plain reference.

  Both programs first form, for every node, the mean of its in-neighbours' feature rows (a gather along the edge list, a
  scatter-add, a division by the larger of the in-degree and one): the same chain of host operations in both. The kernel
  program's first kernel then computes the nodes' three-dimensional embeddings a thousand rows at a time through five
  dense layers with rectifiers; the reference does the same with whole-array matrix products, adding the first layer's
  bias between the two products instead of after them. On the extended reals these are one function of a node's row.
  The second kernel writes, eighty rows at a time, the distance between embeddings `i` and `j` as the root of the sum of
  the three squared coordinate differences; the reference takes the root of the two squared norms minus twice the inner
  product. The two squared distances agree wherever the embeddings are real, and they are real because every float
  input is (the precondition) and sums, products, maxima and a quotient by a real not below one keep reals real.

  The three frames are the generated runs; nothing was rewritten by the idealization, so it preserves trivially.
-/
import proofs.«141129_j26620207301224_1_alg».proof.Defs
import proofs.«141129_j26620207301224_1_alg».proof.Proof.Gen.Kernel
import proofs.«141129_j26620207301224_1_alg».proof.Proof.Gen.Kernel.Frame
import proofs.«141129_j26620207301224_1_alg».proof.Proof.Gen.KernelIdeal
import proofs.«141129_j26620207301224_1_alg».proof.Proof.Gen.KernelIdeal.Frame
import proofs.«141129_j26620207301224_1_alg».proof.Proof.Gen.ReferenceIdeal
import proofs.«141129_j26620207301224_1_alg».proof.Proof.Gen.ReferenceIdeal.Run
import proofs.«141129_j26620207301224_1_alg».proof.Proof.Gen.ReferenceIdeal.Read
import proofs.«141129_j26620207301224_1_alg».proof.Proof.Gen.Pre_finite_inputs
import proofs.«141129_j26620207301224_1_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the table whose entry `(i, j)` is the root of the
    squared distance between embeddings `i` and `j`: the kernel program's spelling of the squared distance on its side, the
    reference's on the other, equal because the embeddings are real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W4 m ρ c (Proc.devRef .tc Cert.KernelIdeal.main_v30), Cert.KernelIdeal.RunNamed.run_named m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v69_eq]
  obtain ⟨a0, a1, a2, a3, a4, a5, a6, a7, a8, a9, a10, a11, a12⟩ := hagree c
  rw [a0, a1, a2, a3, a4, a5, a6, a7, a8, a9, a10, a11, a12]
  funext idx
  obtain ⟨i, j, rfl⟩ : ∃ (i j : Fin 10000), idx = ix2 i j := ⟨idx 0, idx 1, eq_ix2 idx⟩
  refine (Cert.Bridge.ref_out' m c i j).trans ?_
  refine Eq.trans ?_ (Cert.Bridge.kernel_out m ρ c i j).symm
  rw [Sage.sqd_eq_sqdR _ _ (Cert.Bridge.emb_real m hpre c i) (Cert.Bridge.emb_real m hpre c j)]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
